-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S50257x1024 : Shape := ⟨2, ![50257, 1024]⟩
abbrev S2048x1024 : Shape := ⟨2, ![2048, 1024]⟩
abbrev S2048 : Shape := ⟨1, ![2048]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg0 : IVec S4096 32) (main_v33 : IVec S_ 1) : IVec S_ 1 :=
  let main_c_12 : IVec S_ 32 := constantI S_ 32 4294917039#32
  let main_v34 : IVec S4096 32 := broadcastInDim S4096 ![] bcast_S_S4096 main_c_12
  let main_v35 : IVec S4096 1 := cmpi .sge main_arg0 main_v34
  let main_c_13 : IVec S_ 32 := constantI S_ 32 50257#32
  let main_v36 : IVec S4096 32 := broadcastInDim S4096 ![] bcast_S_S4096 main_c_13
  let main_v37 : IVec S4096 1 := cmpi .slt main_arg0 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  main_v40

def fn_part1 {F : FTy → Type} [FloatOps F] (main_arg0 : IVec S4096 32) (main_arg6 : FVec F S2048 .f32) (main_arg7 : FVec F S2048x1024 .f32) (main_arg8 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x1024 .f32 := Host.absf main_arg7
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048 .f32 := Host.absf main_arg8
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg0 main_v33

def fn {F : FTy → Type} [FloatOps F] (main_arg0 : IVec S4096 32) (main_arg1 : IVec S4096 32) (main_arg2 : FVec F S50257x1024 .f32) (main_arg3 : FVec F S2048x1024 .f32) (main_arg4 : FVec F S2048 .f32) (main_arg5 : FVec F S2048x1024 .f32) (main_arg6 : FVec F S2048 .f32) (main_arg7 : FVec F S2048x1024 .f32) (main_arg8 : FVec F S2048 .f32) : IVec S_ 1 :=
  let main_v0 : FVec F S50257x1024 .f32 := Host.absf main_arg2
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S2048x1024 .f32 := Host.absf main_arg3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg5
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg0 main_arg6 main_arg7 main_arg8 main_v13 main_v16
-- ==== Kernel.lean ====
abbrev S4096 : Shape := ⟨1, ![4096]⟩
abbrev S50257x1024 : Shape := ⟨2, ![50257, 1024]⟩
abbrev S2048x1024 : Shape := ⟨2, ![2048, 1024]⟩
abbrev S2048 : Shape := ⟨1, ![2048]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩
abbrev S10x1024 : Shape := ⟨2, ![10, 1024]⟩
abbrev S1024x2048 : Shape := ⟨2, ![1024, 2048]⟩
abbrev S10x2048 : Shape := ⟨2, ![10, 2048]⟩
abbrev S1x2048 : Shape := ⟨2, ![1, 2048]⟩
abbrev S32x64 : Shape := ⟨2, ![32, 64]⟩
abbrev S4096x2048 : Shape := ⟨2, ![4096, 2048]⟩
abbrev S131072x64 : Shape := ⟨2, ![131072, 64]⟩
abbrev S128x1024 : Shape := ⟨2, ![128, 1024]⟩
abbrev S128x2048 : Shape := ⟨2, ![128, 2048]⟩
abbrev S4096x64 : Shape := ⟨2, ![4096, 64]⟩
abbrev S128x32x64 : Shape := ⟨3, ![128, 32, 64]⟩
abbrev S128x32x32 : Shape := ⟨3, ![128, 32, 32]⟩
abbrev S128x32 : Shape := ⟨2, ![128, 32]⟩
abbrev S128x32x1 : Shape := ⟨3, ![128, 32, 1]⟩
abbrev S4096x32 : Shape := ⟨2, ![4096, 32]⟩

abbrev nBuf : Space → Nat
  | .hbm => 51
  | .vmem => 13
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S50257x1024, .f32⟩
  | .hbm, ⟨3, _⟩ => ⟨S2048x1024, .f32⟩
  | .hbm, ⟨4, _⟩ => ⟨S2048, .f32⟩
  | .hbm, ⟨5, _⟩ => ⟨S2048x1024, .f32⟩
  | .hbm, ⟨6, _⟩ => ⟨S2048, .f32⟩
  | .hbm, ⟨7, _⟩ => ⟨S2048x1024, .f32⟩
  | .hbm, ⟨8, _⟩ => ⟨S2048, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S1x1, .i32⟩
  | .hbm, ⟨22, _⟩ => ⟨S4096x1, .i32⟩
  | .hbm, ⟨23, _⟩ => ⟨S4096x1, .i1⟩
  | .hbm, ⟨24, _⟩ => ⟨S4096x1, .i1⟩
  | .hbm, ⟨25, _⟩ => ⟨S_, .i1⟩
  | .hbm, ⟨26, _⟩ => ⟨S4096, .i1⟩
  | .hbm, ⟨27, _⟩ => ⟨S4096x1024, .f32⟩
  | .hbm, ⟨28, _⟩ => ⟨S4096x1024, .i1⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S10x1024, .f32⟩
  | .hbm, ⟨33, _⟩ => ⟨S1024x2048, .f32⟩
  | .hbm, ⟨34, _⟩ => ⟨S10x2048, .f32⟩
  | .hbm, ⟨35, _⟩ => ⟨S1x2048, .f32⟩
  | .hbm, ⟨36, _⟩ => ⟨S10x2048, .f32⟩
  | .hbm, ⟨37, _⟩ => ⟨S10x2048, .f32⟩
  | .hbm, ⟨38, _⟩ => ⟨S_, .f32⟩
  | .hbm, ⟨39, _⟩ => ⟨S2048, .f32⟩
  | .hbm, ⟨40, _⟩ => ⟨S32x64, .f32⟩
  | .hbm, ⟨41, _⟩ => ⟨S4096x1024, .bf16⟩
  | .hbm, ⟨42, _⟩ => ⟨S1024x2048, .f32⟩
  | .hbm, ⟨43, _⟩ => ⟨S1024x2048, .bf16⟩
  | .hbm, ⟨44, _⟩ => ⟨S1024x2048, .f32⟩
  | .hbm, ⟨45, _⟩ => ⟨S1024x2048, .bf16⟩
  | .hbm, ⟨46, _⟩ => ⟨S1024x2048, .f32⟩
  | .hbm, ⟨47, _⟩ => ⟨S1024x2048, .bf16⟩
  | .hbm, ⟨48, _⟩ => ⟨S4096x2048, .f32⟩
  | .hbm, ⟨49, _⟩ => ⟨S131072x64, .f32⟩
  | .hbm, ⟨50, _⟩ => ⟨S4096x2048, .f32⟩
  | .local _ .vmem, ⟨0, _⟩ => ⟨S128x1024, .bf16⟩
  | .local _ .vmem, ⟨1, _⟩ => ⟨S128x1024, .bf16⟩
  | .local _ .vmem, ⟨2, _⟩ => ⟨S1024x2048, .bf16⟩
  | .local _ .vmem, ⟨3, _⟩ => ⟨S2048, .f32⟩
  | .local _ .vmem, ⟨4, _⟩ => ⟨S1024x2048, .bf16⟩
  | .local _ .vmem, ⟨5, _⟩ => ⟨S2048, .f32⟩
  | .local _ .vmem, ⟨6, _⟩ => ⟨S1024x2048, .bf16⟩
  | .local _ .vmem, ⟨7, _⟩ => ⟨S2048, .f32⟩
  | .local _ .vmem, ⟨8, _⟩ => ⟨S32x64, .f32⟩
  | .local _ .vmem, ⟨9, _⟩ => ⟨S128x2048, .f32⟩
  | .local _ .vmem, ⟨10, _⟩ => ⟨S128x2048, .f32⟩
  | .local _ .vmem, ⟨11, _⟩ => ⟨S4096x64, .f32⟩
  | .local _ .vmem, ⟨12, _⟩ => ⟨S4096x64, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16_0 : Ref sig .tc := ⟨.hbm, 48, rfl⟩
abbrev main_v16_1 : Ref sig .tc := ⟨.hbm, 49, rfl⟩
abbrev main_v17 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  slices_S4096x1024_S10x1024_0_0 : S4096x1024.Slices ![0, 0] S10x1024
  transposes_S2048x1024_S1024x2048_1_0 : S2048x1024.Transposes [1, 0] S1024x2048
  bcast_S2048_S1x2048_1 : S2048.BroadcastsInDim S1x2048 (![1] : Fin 1 → Fin S1x2048.rank)
  bcast_S1x2048_S10x2048_0_1 : S1x2048.BroadcastsInDim S10x2048 (![0, 1] : Fin 2 → Fin S10x2048.rank)
  reducesTo_S10x2048_S2048_d0 : S10x2048.ReducesTo [0] S2048
  shapeCasts_S2048_S32x64 : S2048.ShapeCasts S32x64
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  shapeCasts_S128x2048_S128x32x64 : S128x2048.ShapeCasts S128x32x64
  reduces_S128x32x32_S128x32 : S128x32x32.Reduces [2] S128x32
  shapeCasts_S128x32_S128x32x1 : S128x32.ShapeCasts S128x32x1
  broadcasts_S128x32x1_S128x32x32 : S128x32x1.Broadcasts S128x32x32
  shapeCasts_S128x32x32_S4096x32 : S128x32x32.ShapeCasts S4096x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S4096x64_S4096x64_0_0 : ∀ a, (![0, 0] : Fin 2 → Nat) a + S4096x64.size a ≤ S4096x64.size a
  h_S4096x64 : 0 < S4096x64.numel
  shapeCasts_S131072x64_S4096x2048 : S131072x64.ShapeCasts S4096x2048
  gather_S50257x1024_S4096x1_S4096x1024_1_0_n_n_0_1_11024_wf : GatherDims.WF S50257x1024 S4096x1 S4096x1024 [1] [0] [] [0] [] 1 ![1, 1024]
  dot_S10x1024_S1024x2048_S10x2048_1_0_0_1_n_n_wf : DotDims.WF S10x1024 S1024x2048 S10x2048 [1] [0] [0] [1] [] []
  dot_S128x1024_S1024x2048_S128x2048_1_0_0_1_n_n_wf : DotDims.WF S128x1024 S1024x2048 S128x2048 [1] [0] [0] [1] [] []
  dot_S128x32x64_S128x32x64_S128x32x32_2_2_1_1_0_0_wf : DotDims.WF S128x32x64 S128x32x64 S128x32x32 [2] [2] [1] [1] [0] [0]
  dot_S4096x32_S32x64_S4096x64_1_0_0_1_n_n_wf : DotDims.WF S4096x32 S32x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S4096x2048.size a
  hwx0_8 : ∀ i : grid0.Coords, EltTy.bits .f32 = 32 ∨ (Rect.block (s := S4096x2048) S128x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x64.size a ≤ S131072x64.size a
  hwx0_9 : ∀ i : grid0.Coords, EltTy.bits .f32 = 32 ∨ (Rect.block (s := S131072x64) S4096x64.size (cc0_transform_9 i) (hinb0_9 i)).WholeWords (EltTy.packing .f32)

variable [Facts₀]

def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf
def dot_S10x1024_S1024x2048_S10x2048_1_0_0_1_n_n : DotDims S10x1024 S1024x2048 S10x2048 where
  lhsContracting := [1]
  rhsContracting := [0]
  lhsNonContracting := [0]
  rhsNonContracting := [1]
  lhsBatch := []
  rhsBatch := []
  wf := dot_S10x1024_S1024x2048_S10x2048_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x32x64_S128x32x64_S128x32x32_2_2_1_1_0_0 : DotDims S128x32x64 S128x32x64 S128x32x32 where
  lhsContracting := [2]
  rhsContracting := [2]
  lhsNonContracting := [1]
  rhsNonContracting := [1]
  lhsBatch := [0]
  rhsBatch := [0]
  wf := dot_S128x32x64_S128x32x64_S128x32x32_2_2_1_1_0_0_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf

abbrev win0_0 : Pipeline.Window sig grid0 :=
  Pipeline.Window.ofSpec (Memref.whole main_v9) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_0) S128x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_1) S4096x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096 : Shape := ⟨1, ![4096]⟩
abbrev S50257x1024 : Shape := ⟨2, ![50257, 1024]⟩
abbrev S2048x1024 : Shape := ⟨2, ![2048, 1024]⟩
abbrev S2048 : Shape := ⟨1, ![2048]⟩
abbrev S_ : Shape := ⟨0, ![]⟩
abbrev S4096x1 : Shape := ⟨2, ![4096, 1]⟩
abbrev S4096x1024 : Shape := ⟨2, ![4096, 1024]⟩
abbrev S1024x2048 : Shape := ⟨2, ![1024, 2048]⟩
abbrev S4096x2048 : Shape := ⟨2, ![4096, 2048]⟩
abbrev S1x2048 : Shape := ⟨2, ![1, 2048]⟩
abbrev S4096x32x64 : Shape := ⟨3, ![4096, 32, 64]⟩
abbrev S4096x32x32 : Shape := ⟨3, ![4096, 32, 32]⟩
abbrev S4096x32 : Shape := ⟨2, ![4096, 32]⟩
abbrev S4096x32x1 : Shape := ⟨3, ![4096, 32, 1]⟩
abbrev S10x1024 : Shape := ⟨2, ![10, 1024]⟩
abbrev S10x2048 : Shape := ⟨2, ![10, 2048]⟩
abbrev S10x32x64 : Shape := ⟨3, ![10, 32, 64]⟩
abbrev S32x64 : Shape := ⟨2, ![32, 64]⟩

abbrev nBuf : Space → Nat
  | .hbm => 74
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S50257x1024, .f32⟩
  | .hbm, ⟨3, _⟩ => ⟨S2048x1024, .f32⟩
  | .hbm, ⟨4, _⟩ => ⟨S2048, .f32⟩
  | .hbm, ⟨5, _⟩ => ⟨S2048x1024, .f32⟩
  | .hbm, ⟨6, _⟩ => ⟨S2048, .f32⟩
  | .hbm, ⟨7, _⟩ => ⟨S2048x1024, .f32⟩
  | .hbm, ⟨8, _⟩ => ⟨S2048, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x1024, .f32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1024, .f32⟩
  | .hbm, ⟨27, _⟩ => ⟨S1024x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x32x64, .f32⟩
  | .hbm, ⟨33, _⟩ => ⟨S1024x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x32x64, .f32⟩
  | .hbm, ⟨39, _⟩ => ⟨S4096x32x32, .f32⟩
  | .hbm, ⟨40, _⟩ => ⟨S_, .f32⟩
  | .hbm, ⟨41, _⟩ => ⟨S_, .f32⟩
  | .hbm, ⟨42, _⟩ => ⟨S4096x32x32, .f32⟩
  | .hbm, ⟨43, _⟩ => ⟨S4096x32x32, .f32⟩
  | .hbm, ⟨44, _⟩ => ⟨S_, .f32⟩
  | .hbm, ⟨45, _⟩ => ⟨S4096x32, .f32⟩
  | .hbm, ⟨46, _⟩ => ⟨S_, .f32⟩
  | .hbm, ⟨47, _⟩ => ⟨S4096x32, .f32⟩
  | .hbm, ⟨48, _⟩ => ⟨S4096x32, .f32⟩
  | .hbm, ⟨49, _⟩ => ⟨S4096x32x1, .f32⟩
  | .hbm, ⟨50, _⟩ => ⟨S4096x32x32, .f32⟩
  | .hbm, ⟨51, _⟩ => ⟨S4096x32x32, .f32⟩
  | .hbm, ⟨52, _⟩ => ⟨S4096x32x32, .f32⟩
  | .hbm, ⟨53, _⟩ => ⟨S_, .f32⟩
  | .hbm, ⟨54, _⟩ => ⟨S4096x32, .f32⟩
  | .hbm, ⟨55, _⟩ => ⟨S4096x32x1, .f32⟩
  | .hbm, ⟨56, _⟩ => ⟨S4096x32x32, .f32⟩
  | .hbm, ⟨57, _⟩ => ⟨S4096x32x32, .f32⟩
  | .hbm, ⟨58, _⟩ => ⟨S10x1024, .f32⟩
  | .hbm, ⟨59, _⟩ => ⟨S1024x2048, .f32⟩
  | .hbm, ⟨60, _⟩ => ⟨S10x2048, .f32⟩
  | .hbm, ⟨61, _⟩ => ⟨S1x2048, .f32⟩
  | .hbm, ⟨62, _⟩ => ⟨S10x2048, .f32⟩
  | .hbm, ⟨63, _⟩ => ⟨S10x2048, .f32⟩
  | .hbm, ⟨64, _⟩ => ⟨S10x32x64, .f32⟩
  | .hbm, ⟨65, _⟩ => ⟨S_, .f32⟩
  | .hbm, ⟨66, _⟩ => ⟨S32x64, .f32⟩
  | .hbm, ⟨67, _⟩ => ⟨S4096x32x64, .f32⟩
  | .hbm, ⟨68, _⟩ => ⟨S4096x2048, .f32⟩
  | .hbm, ⟨69, _⟩ => ⟨S1024x2048, .f32⟩
  | .hbm, ⟨70, _⟩ => ⟨S4096x2048, .f32⟩
  | .hbm, ⟨71, _⟩ => ⟨S1x2048, .f32⟩
  | .hbm, ⟨72, _⟩ => ⟨S4096x2048, .f32⟩
  | .hbm, ⟨73, _⟩ => ⟨S4096x2048, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  shapeCasts_S4096x2048_S4096x32x64 : S4096x2048.ShapeCasts S4096x32x64
  bcast_S_S4096x32x32 : S_.BroadcastsInDim S4096x32x32 (![] : Fin 0 → Fin S4096x32x32.rank)
  reducesTo_S4096x32x32_S4096x32_d2 : S4096x32x32.ReducesTo [2] S4096x32
  h_S_ : 0 < S_.numel
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x32x1_S4096x32x32_0_1_2 : S4096x32x1.BroadcastsInDim S4096x32x32 (![0, 1, 2] : Fin 3 → Fin S4096x32x32.rank)
  slices_S4096x1024_S10x1024_0_0 : S4096x1024.Slices ![0, 0] S10x1024
  bcast_S1x2048_S10x2048_0_1 : S1x2048.BroadcastsInDim S10x2048 (![0, 1] : Fin 2 → Fin S10x2048.rank)
  shapeCasts_S10x2048_S10x32x64 : S10x2048.ShapeCasts S10x32x64
  reducesTo_S10x32x64_S32x64_d0 : S10x32x64.ReducesTo [0] S32x64
  shapeCasts_S4096x32x64_S4096x2048 : S4096x32x64.ShapeCasts S4096x2048
  gather_S50257x1024_S4096x1_S4096x1024_1_0_n_n_0_1_11024_wf : GatherDims.WF S50257x1024 S4096x1 S4096x1024 [1] [0] [] [0] [] 1 ![1, 1024]
  dot_S4096x1024_S1024x2048_S4096x2048_1_0_0_1_n_n_wf : DotDims.WF S4096x1024 S1024x2048 S4096x2048 [1] [0] [0] [1] [] []
  dot_S4096x32x64_S4096x32x64_S4096x32x32_2_2_1_1_0_0_wf : DotDims.WF S4096x32x64 S4096x32x64 S4096x32x32 [2] [2] [1] [1] [0] [0]
  dot_S10x1024_S1024x2048_S10x2048_1_0_0_1_n_n_wf : DotDims.WF S10x1024 S1024x2048 S10x2048 [1] [0] [0] [1] [] []
  dot_S4096x32x32_S32x64_S4096x32x64_2_0_01_1_n_n_wf : DotDims.WF S4096x32x32 S32x64 S4096x32x64 [2] [0] [0, 1] [1] [] []

variable [Facts₀]

def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf
def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x32x64_S4096x32x64_S4096x32x32_2_2_1_1_0_0 : DotDims S4096x32x64 S4096x32x64 S4096x32x32 where
  lhsContracting := [2]
  rhsContracting := [2]
  lhsNonContracting := [1]
  rhsNonContracting := [1]
  lhsBatch := [0]
  rhsBatch := [0]
  wf := dot_S4096x32x64_S4096x32x64_S4096x32x32_2_2_1_1_0_0_wf
def dot_S10x1024_S1024x2048_S10x2048_1_0_0_1_n_n : DotDims S10x1024 S1024x2048 S10x2048 where
  lhsContracting := [1]
  rhsContracting := [0]
  lhsNonContracting := [0]
  rhsNonContracting := [1]
  lhsBatch := []
  rhsBatch := []
  wf := dot_S10x1024_S1024x2048_S10x2048_1_0_0_1_n_n_wf
def dot_S4096x32x32_S32x64_S4096x32x64_2_0_01_1_n_n : DotDims S4096x32x32 S32x64 S4096x32x64 where
  lhsContracting := [2]
  rhsContracting := [0]
  lhsNonContracting := [0, 1]
  rhsNonContracting := [1]
  lhsBatch := []
  rhsBatch := []
  wf := dot_S4096x32x32_S32x64_S4096x32x64_2_0_01_1_n_n_wf

class Facts : Prop extends Facts₀ where

variable [Facts]
-- ==== Proof.RowAttention.lean ====
/-
  What both programs compute, index by index on the extended reals.

  A batch of 4096 embedding rows `x` (1024 features each) goes through three affine maps with 2048 outputs,
  `head x W b r j = Σ_e x[r,e]·W[j,e] + b[j]`. The 2048 outputs of a row are read as 32 heads of 64 features (column
  `h·64 + d`). Within ONE row the query heads are scored against the key heads, `sc (Σ_d q[h,d]·k[g,d])` with `sc`
  the scaling by one eighth, the scores of a query head are turned into weights by the softmax over the key heads
  (shifted by their maximum), and the weights mix 32 value rows `sv[g,·]` of 64 features. The value rows are the
  same for every row of the batch: the sum over the first ten rows of the batch of their value heads.

  The per-row part (`score` … `mix`) is stated over the row's query and key outputs as plain functions of the
  column, so that it can be read both of a whole array and of a block of 128 rows.
-/
import Idealize.ShloMosaic.PureOps.Ideal
import Idealize.ShloMosaic.Lib.ValueIdx

noncomputable section

open scoped BigOperators

namespace Cert.RowAttn

open Idealize.ShloMosaic Idealize.ShloMosaic.ValueIdx

/-- The gathered embedding rows. -/
abbrev Rows : Shape := ⟨2, ![4096, 1024]⟩
/-- A weight matrix, one row per output. -/
abbrev Wgt : Shape := ⟨2, ![2048, 1024]⟩
/-- A bias, one entry per output. -/
abbrev Bias : Shape := ⟨1, ![2048]⟩
/-- A result: one row of 2048 outputs per batch row. -/
abbrev Res : Shape := ⟨2, ![4096, 2048]⟩

/-- Column `h·64 + d`: feature `d` of head `h`. -/
def col (h : Fin 32) (d : Fin 64) : Fin 2048 := ⟨h.val * 64 + d.val, by omega⟩
/-- The head of a column. -/
def hd (j : Fin 2048) : Fin 32 := ⟨j.val / 64, by omega⟩
/-- The feature of a column within its head. -/
def ft (j : Fin 2048) : Fin 64 := ⟨j.val % 64, by omega⟩

theorem col_hd_ft (j : Fin 2048) : col (hd j) (ft j) = j := Fin.ext (by
  show j.val / 64 * 64 + j.val % 64 = j.val; omega)

/-- Output `j` of row `r` through the affine map `(W, b)`. -/
def head (x : Rows.Idx → EReal) (W : Wgt.Idx → EReal) (b : Bias.Idx → EReal) (r : Fin 4096) (j : Fin 2048) : EReal :=
  (∑ e : Fin 1024, x (ix2 r e) * W (ix2 j e)) + b (ix1 j)

/-- A block of 128 consecutive batch rows. -/
abbrev Blk : Shape := ⟨2, ![128, 1024]⟩
/-- A weight matrix transposed: one column per output. -/
abbrev WgtT : Shape := ⟨2, ![1024, 2048]⟩

/-- Output `j` of row `ρ` of a block through the affine map given by a TRANSPOSED weight matrix and a bias. -/
def bhead (xb : Blk.Idx → EReal) (WT : WgtT.Idx → EReal) (b : Bias.Idx → EReal) (ρ : Fin 128) (j : Fin 2048) : EReal :=
  (∑ e : Fin 1024, xb (ix2 ρ e) * WT (ix2 e j)) + b (ix1 j)

/-- The pattern of `-∞` both programs start their maximum from. -/
abbrev negInf : EReal := Ideal.ofBits .f32 0xFF800000#32

/-- The scaled score of query head `h` against key head `g` of one row. -/
def score (sc : EReal → EReal) (q k : Fin 2048 → EReal) (h g : Fin 32) : EReal :=
  sc (∑ d : Fin 64, q (col h d) * k (col g d))

/-- The largest score of query head `h`. -/
def top (sc : EReal → EReal) (q k : Fin 2048 → EReal) (h : Fin 32) : EReal :=
  max negInf ((Finset.univ : Finset (Fin 32)).fold max negInf (fun g => score sc q k h g))

/-- The exponential of a score shifted by the largest. -/
def ex (sc : EReal → EReal) (q k : Fin 2048 → EReal) (h g : Fin 32) : EReal :=
  Ideal.exp (score sc q k h g - top sc q k h)

/-- The softmax weight of key head `g` for query head `h`. -/
def weight (sc : EReal → EReal) (q k : Fin 2048 → EReal) (h g : Fin 32) : EReal :=
  Ideal.div (ex sc q k h g) (∑ g' : Fin 32, ex sc q k h g')

/-- Feature `d` of the mixed value rows for query head `h`. -/
def mix (sc : EReal → EReal) (q k : Fin 2048 → EReal) (sv : Fin 32 → Fin 64 → EReal) (h : Fin 32) (d : Fin 64) : EReal :=
  ∑ g : Fin 32, weight sc q k h g * sv g d

/-- The value rows: the first ten batch rows' value heads, summed. -/
def sumv (x : Rows.Idx → EReal) (W : Wgt.Idx → EReal) (b : Bias.Idx → EReal) (g : Fin 32) (d : Fin 64) : EReal :=
  ∑ s : Fin 10, head x W b ⟨s.val, by omega⟩ (col g d)

/-- The first result: every row's value outputs. -/
def tvec (x : Rows.Idx → EReal) (Wv : Wgt.Idx → EReal) (bv : Bias.Idx → EReal) : Res.Idx → EReal :=
  fun i => head x Wv bv (i 0) (i 1)

/-- The second result: every row's mixed value rows, head by head. -/
def cvec (sc : EReal → EReal) (x : Rows.Idx → EReal) (Wq : Wgt.Idx → EReal) (bq : Bias.Idx → EReal)
    (Wk : Wgt.Idx → EReal) (bk : Bias.Idx → EReal) (Wv : Wgt.Idx → EReal) (bv : Bias.Idx → EReal) : Res.Idx → EReal :=
  fun i => mix sc (head x Wq bq (i 0)) (head x Wk bk (i 0)) (sumv x Wv bv) (hd (i 1)) (ft (i 1))

/-- The kernel's scaling: the product with the word of one eighth. -/
def kerScale (a : EReal) : EReal := a * Ideal.ofBits .f32 0x3E000000#32

/-- The reference's scaling: the quotient by the square root of the word of sixty-four. -/
def refScale (a : EReal) : EReal := Ideal.div a (Ideal.sqrt (Ideal.ofBits .f32 0x42800000#32))

end Cert.RowAttn

end
-- ==== Proof.HostPrefix.lean ====
/-
  The host operations before the kernel's launch as pure functions of the arrays, and what two of them hold at an
  index: the transposed (and narrowed, which changes nothing on the extended reals) weight matrix, and the 32 value rows
  — the first ten batch rows through the value map, summed over the ten, then read as 32 rows of 64.
-/
import proofs.«411577_j11836929868572_2_alg».proof.Proof.Gen.KernelIdeal
import proofs.«411577_j11836929868572_2_alg».proof.Proof.RowAttention
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowAttn.Host

open Cert.KernelIdeal
open Idealize.ShloMosaic Idealize.ShloMosaic.TcCoe Idealize.ShloMosaic.ValueIdx Idealize.SL.Sem
open Cert.KernelIdeal.Facts₀ Cert.KernelIdeal.Facts

/-- A weight matrix as the launch receives it: transposed, then narrowed. -/
def wT (W : FVec Ideal S2048x1024 .f32) : FVec Ideal S1024x2048 .bf16 :=
  truncf .bf16 (transpose S1024x2048 [1, 0] W transposes_S2048x1024_S1024x2048_1_0) bitsLt_bf16_f32

/-- The value rows as the launch receives them. -/
def valueRows (x : FVec Ideal S4096x1024 .f32) (Wv : FVec Ideal S2048x1024 .f32) (bv : FVec Ideal S2048 .f32) : FVec Ideal S32x64 .f32 :=
  shapeCast S32x64
    (Host.reduceAdd
      (addf
        (Host.dotGeneral dot_S10x1024_S1024x2048_S10x2048_1_0_0_1_n_n none
          (extractStridedSlice S10x1024 ![0, 0] x slices_S4096x1024_S10x1024_0_0)
          (transpose S1024x2048 [1, 0] Wv transposes_S2048x1024_S1024x2048_1_0))
        (broadcastInDim S10x2048 ![0, 1] bcast_S1x2048_S10x2048_0_1 (broadcastInDim S1x2048 ![1] bcast_S2048_S1x2048_1 bv)))
      (constant S_ .f32 0x00000000#32) reducesTo_S10x2048_S2048_d0 h_S_)
    shapeCasts_S2048_S32x64

/-! ### Each operation of the prefix, read at one index -/

/-- A [2048, 1024] matrix transposed: entry `(e, j)` is the matrix's entry `(j, e)`. -/
theorem transpose_at (W : FVec Ideal S2048x1024 .f32) (e : Fin 1024) (j : Fin 2048) :
    transpose S1024x2048 [1, 0] W transposes_S2048x1024_S1024x2048_1_0 (ix2 e j) = W (ix2 j e) :=
  transpose_apply [1, 0] W transposes_S2048x1024_S1024x2048_1_0 (ix2 e j) (ix2 j e) fun b =>
    match b with
    | ⟨0, _⟩ => rfl
    | ⟨1, _⟩ => rfl

/-- The first ten rows of the batch: row `s` of the slice is row `s` of the array. -/
theorem firstRows_at (x : FVec Ideal S4096x1024 .f32) (s : Fin 10) (e : Fin 1024) :
    extractStridedSlice S10x1024 ![0, 0] x slices_S4096x1024_S10x1024_0_0 (ix2 s e) = x (ix2 ⟨s.val, by omega⟩ e) :=
  extractStridedSlice_apply ![0, 0] x slices_S4096x1024_S10x1024_0_0 (ix2 s e) (ix2 ⟨s.val, by omega⟩ e) fun a =>
    match a with
    | ⟨0, _⟩ => by show s.val = 0 + s.val; omega
    | ⟨1, _⟩ => by show e.val = 0 + e.val; omega

/-- A bias laid along the columns of a [10, 2048] array: every row holds the bias. -/
theorem biasRows_at (b : FVec Ideal S2048 .f32) (s : Fin 10) (j : Fin 2048) :
    broadcastInDim S10x2048 ![0, 1] bcast_S1x2048_S10x2048_0_1 (broadcastInDim S1x2048 ![1] bcast_S2048_S1x2048_1 b) (ix2 s j)
      = b (ix1 j) := by
  refine (broadcastInDim_apply _ bcast_S1x2048_S10x2048_0_1 _ (ix2 s j) (ix2 (0 : Fin 1) j) fun a => ?_).trans
    (broadcastInDim_apply _ bcast_S2048_S1x2048_1 b (ix2 (0 : Fin 1) j) (ix1 j) fun a => ?_)
  · match a with
    | ⟨0, _⟩ => show 0 = if (1 : Nat) = 1 then 0 else s.val; rw [if_pos rfl]
    | ⟨1, _⟩ => show j.val = if (2048 : Nat) = 1 then 0 else j.val; rw [if_neg (by decide)]
  · match a with
    | ⟨0, _⟩ => show j.val = if (2048 : Nat) = 1 then 0 else j.val; rw [if_neg (by decide)]

/-! The product of the ten rows with the transposed matrix contracts the 1024 features: axis 1 of the left operand
against axis 0 of the right. The four facts below say where the product's dimension numbers send an output index and a
contraction index on each operand axis. -/

theorem lhs_rows_0 (i : S10x2048.Idx) (q : dot_S10x1024_S1024x2048_S10x2048_1_0_0_1_n_n.contr.Idx) :
    (dot_S10x1024_S1024x2048_S10x2048_1_0_0_1_n_n.lhsIdx i q 0).val = (i 0).val := by
  unfold DotDims.lhsIdx
  rw [dif_neg (show ¬(0 : Fin S10x1024.rank) ∈ dot_S10x1024_S1024x2048_S10x2048_1_0_0_1_n_n.lhsBatch by decide),
    dif_pos (show (0 : Fin S10x1024.rank) ∈ dot_S10x1024_S1024x2048_S10x2048_1_0_0_1_n_n.lhsNonContracting by decide)]
  rfl

theorem lhs_rows_1 (i : S10x2048.Idx) (q : dot_S10x1024_S1024x2048_S10x2048_1_0_0_1_n_n.contr.Idx) :
    (dot_S10x1024_S1024x2048_S10x2048_1_0_0_1_n_n.lhsIdx i q 1).val = (q ⟨0, by decide⟩).val :=
  dot_S10x1024_S1024x2048_S10x2048_1_0_0_1_n_n.lhsIdx_val_of_single rfl i q

theorem rhs_rows_0 (i : S10x2048.Idx) (q : dot_S10x1024_S1024x2048_S10x2048_1_0_0_1_n_n.contr.Idx) :
    (dot_S10x1024_S1024x2048_S10x2048_1_0_0_1_n_n.rhsIdx i q 0).val = (q ⟨0, by decide⟩).val :=
  dot_S10x1024_S1024x2048_S10x2048_1_0_0_1_n_n.rhsIdx_val_of_single rfl i q

theorem rhs_rows_1 (i : S10x2048.Idx) (q : dot_S10x1024_S1024x2048_S10x2048_1_0_0_1_n_n.contr.Idx) :
    (dot_S10x1024_S1024x2048_S10x2048_1_0_0_1_n_n.rhsIdx i q 1).val = (i 1).val := by
  unfold DotDims.rhsIdx
  rw [dif_neg (show ¬(1 : Fin S1024x2048.rank) ∈ dot_S10x1024_S1024x2048_S10x2048_1_0_0_1_n_n.rhsBatch by decide),
    dif_pos (show (1 : Fin S1024x2048.rank) ∈ dot_S10x1024_S1024x2048_S10x2048_1_0_0_1_n_n.rhsNonContracting by decide)]
  rfl

/-- Ten rows times a [1024, 2048] matrix: entry `(s, j)` is the sum over the features of row `s` times column `j`. -/
theorem rowsDot_at (a : FVec Ideal S10x1024 .f32) (w : FVec Ideal S1024x2048 .f32) (s : Fin 10) (j : Fin 2048) :
    Host.dotGeneral (F := Ideal) dot_S10x1024_S1024x2048_S10x2048_1_0_0_1_n_n none a w (ix2 s j) = ∑ e : Fin 1024, a (ix2 s e) * w (ix2 e j) := by
  simp only [Host.dotGeneral]
  rw [Ideal.dotGeneral_apply, ← Equiv.sum_comp (contrEquiv1 dot_S10x1024_S1024x2048_S10x2048_1_0_0_1_n_n 1024 rfl rfl).symm]
  refine Finset.sum_congr rfl fun e _ => ?_
  have he := contrEquiv1_symm_val dot_S10x1024_S1024x2048_S10x2048_1_0_0_1_n_n 1024 rfl rfl e
  have el : dot_S10x1024_S1024x2048_S10x2048_1_0_0_1_n_n.lhsIdx (ix2 s j) ((contrEquiv1 dot_S10x1024_S1024x2048_S10x2048_1_0_0_1_n_n 1024 rfl rfl).symm e) = ix2 s e :=
    funext fun c => Fin.ext (by
      match c with
      | ⟨0, _⟩ => exact lhs_rows_0 _ _
      | ⟨1, _⟩ => exact (lhs_rows_1 _ _).trans he)
  have er : dot_S10x1024_S1024x2048_S10x2048_1_0_0_1_n_n.rhsIdx (ix2 s j) ((contrEquiv1 dot_S10x1024_S1024x2048_S10x2048_1_0_0_1_n_n 1024 rfl rfl).symm e) = ix2 e j :=
    funext fun c => Fin.ext (by
      match c with
      | ⟨0, _⟩ => exact (rhs_rows_0 _ _).trans he
      | ⟨1, _⟩ => exact rhs_rows_1 _ _)
  rw [el, er]

/-- The host's sum of a [10, 2048] array over its ten rows, from the zero word: at column `j` the ten entries' sum. -/
theorem sumRows_at (y : FVec Ideal S10x2048 .f32) (j : Fin 2048) :
    Host.reduceAdd (F := Ideal) y (constant (F := Ideal) S_ .f32 0x00000000#32) reducesTo_S10x2048_S2048_d0 h_S_ (ix1 j)
      = ∑ s : Fin 10, y (ix2 s j) := by
  simp only [Host.reduceAdd, Ideal.hostReduceAdd_def]
  rw [Ideal.hostReduceAdd_single reducesTo_S10x2048_S2048_d0 (by decide), constant_apply, Ideal.ofBits_zero_f32, zero_add]
  refine Finset.sum_congr rfl fun s _ => congrArg y (funext fun a => Fin.ext ?_)
  match a with
  | ⟨0, _⟩ => rfl
  | ⟨1, _⟩ => rfl

/-- A [2048] vector read as 32 rows of 64: entry `(g, d)` is entry `g·64 + d`. -/
theorem asHeads_at (y : FVec Ideal S2048 .f32) (g : Fin 32) (d : Fin 64) :
    shapeCast S32x64 y shapeCasts_S2048_S32x64 (ix2 g d) = y (ix1 (col g d)) :=
  shapeCast_apply y shapeCasts_S2048_S32x64 (ix2 g d) (ix1 (col g d)) (by
    rw [Shape.rowMajor_val_one, Shape.rowMajor_val_two]
    rfl)

/-! ### The two arrays the launch receives -/

/-- Entry `(e, j)` of the transposed matrix is entry `(j, e)` of the matrix. -/
theorem wT_apply (W : FVec Ideal S2048x1024 .f32) (e : Fin 1024) (j : Fin 2048) :
    wT W (ix2 e j) = W (ix2 j e) := by
  unfold wT
  rw [truncf_apply, transpose_at]

/-- Value row `g` at feature `d`: the first ten batch rows' output `g·64 + d` of the value map, summed. -/
theorem valueRows_apply (x : FVec Ideal S4096x1024 .f32) (Wv : FVec Ideal S2048x1024 .f32) (bv : FVec Ideal S2048 .f32)
    (g : Fin 32) (d : Fin 64) :
    valueRows x Wv bv (ix2 g d) = Cert.RowAttn.sumv x Wv bv g d := by
  unfold valueRows
  rw [asHeads_at, sumRows_at]
  unfold Cert.RowAttn.sumv Cert.RowAttn.head
  refine Finset.sum_congr rfl fun s _ => ?_
  rw [addf_apply, rowsDot_at, biasRows_at]
  refine congrArg (· + bv (ix1 (col g d))) (Finset.sum_congr rfl fun e _ => ?_)
  rw [firstRows_at, transpose_at]

end Cert.RowAttn.Host

end
-- ==== Proof.TakeInRange.lean ====
/-
  Under the precondition every index word names a row of the 50257-row table, counting from the end when negative
  (`-50257 ≤ t < 50257`). Then the take's range mask — taken on the index after the negative ones are wrapped — is all
  ones, and the take with fill is the plain gather at the wrapped indices.
-/
import proofs.«411577_j11836929868572_2_alg».proof.Defs
import proofs.«411577_j11836929868572_2_alg».proof.Proof.Gen.KernelIdeal
import proofs.«411577_j11836929868572_2_alg».proof.Proof.Gen.Pre_finite_inputs
import Idealize.ShloMosaic.Lib.ReduceAll
import Idealize.ShloMosaic.Lib.ValueIdx
import Idealize.ShloMosaic.Lib.StableHlo.Predicate

noncomputable section

namespace Cert.RowAttn.Take

open Cert.KernelIdeal
open Idealize.ShloMosaic Idealize.ShloMosaic.TcCoe Idealize.ShloMosaic.ValueIdx Idealize.SL.Sem
open Cert.KernelIdeal.Facts₀ Cert.KernelIdeal.Facts

/-- The word is a row index of the table, from the front or (negative) from the end. -/
def InRange (w : BitVec 32) : Prop :=
  IntOp.cmpi .sge w 4294917039#32 = 1#1 ∧ IntOp.cmpi .slt w 50257#32 = 1#1

/-! ### Words -/

/-- Read signed, a word in range lies between minus the table's height and the height. -/
theorem inRange_iff (w : BitVec 32) : InRange w ↔ -50257 ≤ w.toInt ∧ w.toInt < 50257 := by
  have hlo : (4294917039#32 : BitVec 32).toInt = -50257 := by decide
  have hhi : (50257#32 : BitVec 32).toInt = 50257 := by decide
  unfold InRange
  rw [IntOp.cmpi_sge, IntOp.cmpi_slt, hlo, hhi]

/-- One index word wrapped: a negative word has the table's height added. -/
def wrapWord (w : BitVec 32) : BitVec 32 :=
  Scalar.select (IntOp.cmpi .slt w 0#32) (IntOp.addi w 50257#32) w

/-- A negative word in range, with the height added, reads signed as the sum: nothing wraps around. -/
theorem toInt_add_height (w : BitVec 32) (hlo : -50257 ≤ w.toInt) (hneg : w.toInt < 0) :
    (IntOp.addi w 50257#32).toInt = w.toInt + 50257 := by
  have hh : (50257#32 : BitVec 32).toInt = 50257 := by decide
  show (w + 50257#32).toInt = _
  rw [BitVec.toInt_add, hh]
  exact Int.bmod_eq_of_le (by omega) (by omega)

/-- Read signed, the wrapped word of a word in range is a row number of the table: from 0 to 50256. -/
theorem toInt_wrapWord (w : BitVec 32) (h : InRange w) : 0 ≤ (wrapWord w).toInt ∧ (wrapWord w).toInt ≤ 50256 := by
  obtain ⟨hlo, hhi⟩ := (inRange_iff w).1 h
  have hz : (0#32 : BitVec 32).toInt = 0 := by decide
  unfold wrapWord
  by_cases hneg : w.toInt < 0
  · have hc : IntOp.cmpi .slt w 0#32 = 1#1 := IntOp.cmpi_slt.2 (by rw [hz]; exact hneg)
    rw [hc, select_one, toInt_add_height w hlo hneg]
    omega
  · have hc : IntOp.cmpi .slt w 0#32 = 0#1 :=
      eq_zero_of_ne_one fun h1 => hneg (by have := IntOp.cmpi_slt.1 h1; rwa [hz] at this)
    rw [hc, select_zero]
    omega

/-- So the wrapped word passes both tests of the take's range mask. -/
theorem wrapWord_passes (w : BitVec 32) (h : InRange w) :
    IntOp.cmpi .sge (wrapWord w) 0#32 = 1#1 ∧ IntOp.cmpi .sle (wrapWord w) 50256#32 = 1#1 := by
  have hz : (0#32 : BitVec 32).toInt = 0 := by decide
  have ht : (50256#32 : BitVec 32).toInt = 50256 := by decide
  rw [IntOp.cmpi_sge, IntOp.cmpi_sle, hz, ht]
  exact toInt_wrapWord w h

/-! ### A conjunction over an array -/

/-- A left fold by `and` that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, _, h, hf =>
    foldl_andi_one f l _ (IntOp.andi_eq_one.2 ⟨h, hf a List.mem_cons_self⟩) fun n hn => hf n (List.mem_cons_of_mem _ hn)

/-- A reduction by `and` from 1 of an array of 1s is 1 at every result index, whatever axes it runs over. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) fun i _ => hx i

/-- An array of 1s broadcast along any axes is 1 at every index. -/
theorem broadcastInDim_one {s t : Shape} (dims : Fin s.rank → Fin t.rank) (h : s.BroadcastsInDim t dims)
    (x : s.Idx → BitVec 1) (hx : ∀ k, x k = 1#1) (j : t.Idx) : broadcastInDim t dims h x j = 1#1 :=
  hx _

/-! ### The precondition's range conjunct -/

instance : Subsingleton Cert.Pre_finite_inputs.S_.Idx := ⟨fun a b => funext fun d => d.elim0⟩

/-- The printed predicate's last part is 1 only if every index word is in range: its result is the conjunction of
    what came before with the `all` of the two compares. -/
theorem inRange_of_part2 {F : FTy → Type} [FloatOps F] (t : IVec Cert.Pre_finite_inputs.S4096 32)
    (v : IVec Cert.Pre_finite_inputs.S_ 1) (j : Cert.Pre_finite_inputs.S_.Idx)
    (e : Cert.Pre_finite_inputs.fn_part2 (F := F) t v j = 1#1) (i : Cert.Pre_finite_inputs.S4096.Idx) : InRange (t i) := by
  unfold Cert.Pre_finite_inputs.fn_part2 at e
  dsimp only at e
  have eall := (IntOp.andi_eq_one.1 e).2
  have ei := Host.reduce_andi_all _ _ _ _ j eall i
  exact IntOp.andi_eq_one.1 ei

/-- The precondition's last conjunct, read at one index word. -/
theorem range_of_pre (m : (ℓ : Loc nD τ sig) → Buf (Elt Ideal) ℓ) (h : Cert.Pre_KernelIdeal m) (c : Dev nD) (i : S4096.Idx) :
    InRange (m ((c.tc : Thread nD τ).loc main_arg0) i) := by
  have e := congrFun (h c) ValueIdx.ix0
  unfold Cert.Pre_finite_inputs.fn Cert.Pre_finite_inputs.fn_part1 at e
  exact inRange_of_part2 _ _ _ e i

/-- The index column both programs gather at: a negative word wrapped by the table's height. -/
def wrapIdx (t : IVec S4096 32) : IVec S4096x1 32 :=
  broadcastInDim S4096x1 ![0] bcast_S4096_S4096x1_0
    (select (cmpi .slt t (broadcastInDim S4096 ![] bcast_S_S4096 (constantI S_ 32 0#32)))
      (addi t (broadcastInDim S4096 ![] bcast_S_S4096 (constantI S_ 32 50257#32))) t)

/-- An entry of the index column is the wrapped word of some index word. -/
theorem wrapIdx_apply' (t : IVec S4096 32) (k : S4096x1.Idx) : ∃ r : S4096.Idx, wrapIdx t k = wrapWord (t r) :=
  ⟨_, rfl⟩

/-- Row `r` of the index column is the wrapped word of index word `r`. -/
theorem wrapIdx_apply (t : IVec S4096 32) (r : Fin 4096) : wrapIdx t (ix2 r 0) = wrapWord (t (ix1 r)) := by
  have hk : ∀ k : S4096.Idx, (k 0).val = r.val → wrapWord (t k) = wrapWord (t (ix1 r)) := fun k hk => by
    rw [show k = ix1 r from (eq_ix1 k).trans (congrArg ix1 (Fin.ext hk))]
  exact hk _ rfl

/-- With every word in range the fill never applies. -/
theorem take_eq_gather (t : IVec S4096 32) (emb : FVec Ideal S50257x1024 .f32) (ht : ∀ i, InRange (t i)) :
    select (broadcastInDim S4096x1024 ![0] bcast_S4096_S4096x1024_0
        (Host.reduce IntOp.andi
          (andi (cmpi .sge (wrapIdx t) (broadcastInDim S4096x1 ![] bcast_S_S4096x1 (constantI S_ 32 0#32)))
            (cmpi .sle (wrapIdx t) (broadcastInDim S4096x1 ![0, 1] bcast_S1x1_S4096x1_0_1
              (broadcastInDim S1x1 ![1] bcast_S1_S1x1_1 (constantI S1 32 50256#32)))))
          (constantI S_ 1 1#1) reducesTo_S4096x1_S4096_d1 h_S_))
      (Host.gather gather_S50257x1024_S4096x1_S4096x1024_1_0_n_n_0_1_11024 emb (wrapIdx t))
      (broadcastInDim S4096x1024 ![] bcast_S_S4096x1024 (constant (F := Ideal) S_ .f32 0x7FC00000#32))
    = Host.gather gather_S50257x1024_S4096x1_S4096x1024_1_0_n_n_0_1_11024 emb (wrapIdx t) := by
  funext i
  rw [select_apply, broadcastInDim_one _ _ _ ?_ i, select_one]
  intro k
  refine reduce_andi_one _ _ _ _ (fun _ => rfl) (fun q => ?_) k
  obtain ⟨r, e⟩ := wrapIdx_apply' t q
  obtain ⟨h0, h1⟩ := wrapWord_passes (t r) (ht r)
  refine IntOp.andi_eq_one.2 ⟨?_, ?_⟩
  · show IntOp.cmpi .sge (wrapIdx t q) 0#32 = 1#1
    rw [e]; exact h0
  · show IntOp.cmpi .sle (wrapIdx t q) 50256#32 = 1#1
    rw [e]; exact h1

end Cert.RowAttn.Take

end
-- ==== Proof.KernelInputs.lean ====
/-
  The arrays the kernel's launch reads, as the host operations before it leave them, and each window's block at a grid
  point as entries of its array: point `t` stages batch rows `128·t … 128·t + 127`; the weights, the biases and the value
  rows are staged whole.
-/
import proofs.«411577_j11836929868572_2_alg».proof.Proof.Gen.KernelIdeal.Frame
import proofs.«411577_j11836929868572_2_alg».proof.Proof.RowAttention
import proofs.«411577_j11836929868572_2_alg».proof.Proof.HostPrefix
import proofs.«411577_j11836929868572_2_alg».proof.Proof.TakeInRange
import Idealize.ShloMosaic.Lib.Pipeline.Value
import Idealize.ShloMosaic.Lib.StableHlo.Run
import Idealize.ShloMosaic.Lib.Tactic

noncomputable section

namespace Cert.RowAttn.Ker

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The embedding rows taken at the index words, with the fill where a wrapped word is out of range. -/
def takeRows (t : IVec S4096 32) (emb : FVec Ideal S50257x1024 .f32) : FVec Ideal S4096x1024 .f32 :=
  select (broadcastInDim S4096x1024 ![0] bcast_S4096_S4096x1024_0
      (Host.reduce IntOp.andi
        (andi (cmpi .sge (Take.wrapIdx t) (broadcastInDim S4096x1 ![] bcast_S_S4096x1 (constantI S_ 32 0#32)))
          (cmpi .sle (Take.wrapIdx t) (broadcastInDim S4096x1 ![0, 1] bcast_S1x1_S4096x1_0_1
            (broadcastInDim S1x1 ![1] bcast_S1_S1x1_1 (constantI S1 32 50256#32)))))
        (constantI S_ 1 1#1) reducesTo_S4096x1_S4096_d1 h_S_))
    (Host.gather gather_S50257x1024_S4096x1_S4096x1024_1_0_n_n_0_1_11024 emb (Take.wrapIdx t))
    (broadcastInDim S4096x1024 ![] bcast_S_S4096x1024 (constant (F := Ideal) S_ .f32 0x7FC00000#32))

/-- The rows the kernel program computes with, on core `c`. -/
abbrev rows (c : Dev nD) : FVec Ideal S4096x1024 .f32 :=
  takeRows (m ((c : Thread nD τ).loc main_arg0)) (m ((c : Thread nD τ).loc main_arg2))

set_option maxHeartbeats 4000000 in
/-- The staged rows: the taken rows, narrowed. -/
theorem V_rows (c : Dev nD) : V m c main_v9 = truncf .bf16 (rows m c) bitsLt_bf16_f32 := by
  dsimp only [Gen.V, Gen.V0]
  simp only [Gen.hostOps0, Gen.hostOps0_1, List.flatten_cons, List.flatten_nil, List.append_nil, List.cons_append, List.nil_append]
  after_results
  rfl

set_option maxHeartbeats 4000000 in
/-- The staged query weights. -/
theorem V_wq (c : Dev nD) : V m c main_v11 = Host.wT (m ((c : Thread nD τ).loc main_arg3)) := by
  dsimp only [Gen.V, Gen.V0]
  simp only [Gen.hostOps0, Gen.hostOps0_1, List.flatten_cons, List.flatten_nil, List.append_nil, List.cons_append, List.nil_append]
  after_results
  rfl

set_option maxHeartbeats 4000000 in
/-- The staged key weights. -/
theorem V_wk (c : Dev nD) : V m c main_v13 = Host.wT (m ((c : Thread nD τ).loc main_arg5)) := by
  dsimp only [Gen.V, Gen.V0]
  simp only [Gen.hostOps0, Gen.hostOps0_1, List.flatten_cons, List.flatten_nil, List.append_nil, List.cons_append, List.nil_append]
  after_results
  rfl

set_option maxHeartbeats 4000000 in
/-- The staged value weights. -/
theorem V_wv (c : Dev nD) : V m c main_v15 = Host.wT (m ((c : Thread nD τ).loc main_arg7)) := by
  dsimp only [Gen.V, Gen.V0]
  simp only [Gen.hostOps0, Gen.hostOps0_1, List.flatten_cons, List.flatten_nil, List.append_nil, List.cons_append, List.nil_append]
  after_results
  rfl

set_option maxHeartbeats 4000000 in
/-- The staged value rows. -/
theorem V_valueRows (c : Dev nD) :
    V m c main_v8 = Host.valueRows (rows m c) (m ((c : Thread nD τ).loc main_arg7)) (m ((c : Thread nD τ).loc main_arg8)) := by
  dsimp only [Gen.V, Gen.V0]
  simp only [Gen.hostOps0, Gen.hostOps0_1, List.flatten_cons, List.flatten_nil, List.append_nil, List.cons_append, List.nil_append]
  after_results
  rfl

end Cert.RowAttn.Ker

end
-- ==== Proof.BlockForms.lean ====
/-
  The same affine map read three ways — of a block of rows, of the whole batch through a transposed weight matrix, and
  of the whole batch through the weight matrix itself — is one function once the arrays are identified entry by entry.
-/
import proofs.«411577_j11836929868572_2_alg».proof.Proof.RowAttention

noncomputable section

open scoped BigOperators

namespace Cert.RowAttn

open Idealize.ShloMosaic Idealize.ShloMosaic.ValueIdx

/-- Output `j` of batch row `r` through a TRANSPOSED weight matrix and a bias. -/
def headT (x : Rows.Idx → EReal) (WT : WgtT.Idx → EReal) (b : Bias.Idx → EReal) (r : Fin 4096) (j : Fin 2048) : EReal :=
  (∑ e : Fin 1024, x (ix2 r e) * WT (ix2 e j)) + b (ix1 j)

/-- A block row is a batch row: where the block's row `ρ` is the batch's row `r` and the staged weights and bias are
    the arrays', the block's outputs are the batch row's. -/
theorem bhead_eq_headT (xb : Blk.Idx → EReal) (WTb : WgtT.Idx → EReal) (bb : Bias.Idx → EReal)
    (x : Rows.Idx → EReal) (WT : WgtT.Idx → EReal) (b : Bias.Idx → EReal) (ρ : Fin 128) (r : Fin 4096)
    (hx : ∀ e, xb (ix2 ρ e) = x (ix2 r e)) (hW : ∀ e j, WTb (ix2 e j) = WT (ix2 e j)) (hb : ∀ j, bb (ix1 j) = b (ix1 j)) :
    bhead xb WTb bb ρ = headT x WT b r := by
  funext j
  unfold bhead headT
  rw [hb j]
  exact congrArg (· + b (ix1 j)) (Finset.sum_congr rfl fun e _ => by rw [hx e, hW e j])

/-- Through the transposed matrix or through the matrix: entry `(e, j)` of the one is entry `(j, e)` of the other. -/
theorem headT_eq_head (x x' : Rows.Idx → EReal) (WT : WgtT.Idx → EReal) (W : Wgt.Idx → EReal) (b : Bias.Idx → EReal)
    (hx : ∀ r e, x (ix2 r e) = x' (ix2 r e)) (hW : ∀ e j, WT (ix2 e j) = W (ix2 j e)) (r : Fin 4096) :
    headT x WT b r = head x' W b r := by
  funext j
  unfold headT head
  exact congrArg (· + b (ix1 j)) (Finset.sum_congr rfl fun e _ => by rw [hx r e, hW e j])

end Cert.RowAttn

end
-- ==== Proof.BodyReading.lean ====
/-
  The kernel body's two stored values, read at an index of the block they are stored to, are the functions of
  RowAttention.lean of the body's loaded blocks.
-/
import proofs.«411577_j11836929868572_2_alg».proof.Proof.Gen.KernelIdeal.Skeleton
import proofs.«411577_j11836929868572_2_alg».proof.Proof.RowAttention
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowAttn.Body

open Cert.KernelIdeal Cert.KernelIdeal.Gen
open Idealize.ShloMosaic Idealize.ShloMosaic.TcCoe Idealize.ShloMosaic.ValueIdx Idealize.SL.Sem

/-! ## The plain product of a block of rows with a transposed weight matrix

The operand indices of the product at an output index and a contraction coordinate, axis by axis; then the product
at `(ρ, j)` as the sum over the one contracted axis. -/

theorem rowsW_lhs_0 (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide),
    dif_pos (show (0 : Fin S128x1024.rank) ∈ dot_S128x1024_S1024x2048_S128x2048_1_0_0_1_n_n.lhsNonContracting by decide)]
  rfl
theorem rowsW_lhs_1 (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q
theorem rowsW_rhs_0 (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q
theorem rowsW_rhs_1 (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide),
    dif_pos (show (1 : Fin S1024x2048.rank) ∈ dot_S128x1024_S1024x2048_S128x2048_1_0_0_1_n_n.rhsNonContracting by decide)]
  rfl

/-- The product of a block of rows with a transposed weight matrix, into the zero accumulator, at row `ρ` and
    output `j`: the sum over the 1024 features. -/
theorem rowsW_apply (a : FVec Ideal S128x1024 .bf16) (w : FVec Ideal S1024x2048 .bf16) (ρ : Fin 128) (j : Fin 2048) :
    matmul dot_S128x1024_S1024x2048_S128x2048_1_0_0_1_n_n none a w (constant (F := Ideal) S128x2048 .f32 0x00000000#32) (ix2 ρ j)
      = ∑ e : Fin 1024, a (ix2 ρ e) * w (ix2 e j) := by
  simp only [matmul]
  rw [Ideal.matmul_constant_zero_apply,
    ← Equiv.sum_comp (contrEquiv1 dot_S128x1024_S1024x2048_S128x2048_1_0_0_1_n_n 1024 rfl rfl).symm]
  refine Finset.sum_congr rfl fun e _ => ?_
  have he := contrEquiv1_symm_val dot_S128x1024_S1024x2048_S128x2048_1_0_0_1_n_n 1024 rfl rfl e
  have el : dot_S128x1024_S1024x2048_S128x2048_1_0_0_1_n_n.lhsIdx (ix2 ρ j)
      ((contrEquiv1 dot_S128x1024_S1024x2048_S128x2048_1_0_0_1_n_n 1024 rfl rfl).symm e) = ix2 ρ e :=
    funext fun ax => Fin.ext (by
      match ax with
      | ⟨0, _⟩ => exact rowsW_lhs_0 _ _
      | ⟨1, _⟩ => exact (rowsW_lhs_1 _ _).trans he)
  have er : dot_S128x1024_S1024x2048_S128x2048_1_0_0_1_n_n.rhsIdx (ix2 ρ j)
      ((contrEquiv1 dot_S128x1024_S1024x2048_S128x2048_1_0_0_1_n_n 1024 rfl rfl).symm e) = ix2 e j :=
    funext fun ax => Fin.ext (by
      match ax with
      | ⟨0, _⟩ => exact (rowsW_rhs_0 _ _).trans he
      | ⟨1, _⟩ => exact rowsW_rhs_1 _ _)
  rw [el, er]

/-- A bias of 2048 entries, viewed as one row and repeated over the 128 rows of a block, reads its entry `j` in every row. -/
theorem biasRow_apply (b : FVec Ideal S2048 .f32) (ρ : Fin 128) (j : Fin 2048) :
    broadcastTo S128x2048 (shapeCast S1x2048 b shapeCasts_S2048_S1x2048) broadcasts_S1x2048_S128x2048 (ix2 ρ j) = b (ix1 j) := by
  rw [broadcastTo_1b_ab_apply, shapeCast_a_1a_apply]

/-- The body's affine map of a block: the rows through a transposed weight matrix, plus the bias row. -/
def affineV (x0 : Vec Ideal S128x1024 .bf16) (W : Vec Ideal S1024x2048 .bf16) (b : Vec Ideal S2048 .f32) :
    FVec Ideal S128x2048 .f32 :=
  addf (matmul dot_S128x1024_S1024x2048_S128x2048_1_0_0_1_n_n none (k0_pay2 (F := Ideal) x0)
      (shapeCast S1024x2048 W shapeCasts_S1024x2048_S1024x2048 : FVec Ideal S1024x2048 .bf16)
      (constant (F := Ideal) S128x2048 .f32 0x00000000#32))
    (broadcastTo S128x2048 (shapeCast S1x2048 b shapeCasts_S2048_S1x2048 : FVec Ideal S1x2048 .f32)
      broadcasts_S1x2048_S128x2048)

/-- At row `ρ` and output `j` it is the affine map of RowAttention.lean over the block. -/
theorem affineV_apply (x0 : Vec Ideal S128x1024 .bf16) (W : Vec Ideal S1024x2048 .bf16) (b : Vec Ideal S2048 .f32)
    (ρ : Fin 128) (j : Fin 2048) : affineV x0 W b (ix2 ρ j) = Cert.RowAttn.bhead x0 W b ρ j := by
  unfold affineV
  rw [addf_apply, rowsW_apply, biasRow_apply]
  unfold k0_pay2
  rw [shapeCast_self, shapeCast_self]
  rfl

/-- The payload the body stores to the first result's block is the affine map by the value weights. -/
theorem pay3_eq (x0 : Vec Ideal S128x1024 .bf16) (x5 : Vec Ideal S1024x2048 .bf16) (x6 : Vec Ideal S2048 .f32) :
    k0_pay3 (F := Ideal) x0 x5 x6 = affineV x0 x5 x6 := rfl

/-- The value outputs the body stores to the first result's block: row `ρ` of the block through the value map. -/
theorem pay3_apply (x0 : Vec Ideal S128x1024 .bf16) (x5 : Vec Ideal S1024x2048 .bf16) (x6 : Vec Ideal S2048 .f32)
    (ρ : Fin 128) (j : Fin 2048) :
    (k0_pay3 (F := Ideal) x0 x5 x6) (ix2 ρ j) = Cert.RowAttn.bhead x0 x5 x6 ρ j := by
  rw [pay3_eq, affineV_apply]

/-! ## Heads: the 2048 outputs of a row read as 32 heads of 64 features -/

/-- The outputs of a block, reshaped to heads, read at `(ρ, h, d)` the output of row `ρ` at column `h·64 + d`. -/
theorem heads_apply {α : Type} (v : S128x2048.Idx → α) (ρ : Fin 128) (h : Fin 32) (d : Fin 64) :
    shapeCast S128x32x64 v shapeCasts_S128x2048_S128x32x64 (ix3 ρ h d) = v (ix2 ρ (Cert.RowAttn.col h d)) :=
  shapeCast_apply v shapeCasts_S128x2048_S128x32x64 (ix3 ρ h d) (ix2 ρ (Cert.RowAttn.col h d)) (by
    rw [Shape.rowMajor_val_two, Shape.rowMajor_val_three]
    show ρ.val * 2048 + (h.val * 64 + d.val) = (ρ.val * 32 + h.val) * 64 + d.val
    omega)

/-- A per-head quantity given a trailing unit axis and repeated over the 32 key heads reads, at `(ρ, h, g)`, its
    value at `(ρ, h)`. -/
theorem perHead_apply {α : Type} (v : S128x32.Idx → α) (ρ : Fin 128) (h g : Fin 32) :
    broadcastTo S128x32x32 (shapeCast S128x32x1 v shapeCasts_S128x32_S128x32x1) broadcasts_S128x32x1_S128x32x32 (ix3 ρ h g)
      = v (ix2 ρ h) := by
  refine (broadcastTo_apply _ broadcasts_S128x32x1_S128x32x32 (ix3 ρ h g) (ix3 ρ h (0 : Fin 1)) fun ax => ?_).trans ?_
  · match ax with
    | ⟨0, _⟩ => rfl
    | ⟨1, _⟩ => rfl
    | ⟨2, _⟩ => rfl
  · exact shapeCast_apply v shapeCasts_S128x32_S128x32x1 (ix3 ρ h (0 : Fin 1)) (ix2 ρ h) (by
      rw [Shape.rowMajor_val_two, Shape.rowMajor_val_three]
      show ρ.val * 32 + h.val = (ρ.val * 32 + h.val) * 1 + 0
      omega)

/-- The index a lane reduction reads: the reduced index `(ρ, h)` with the key head `g` inserted last. -/
theorem lane_lift (ρ : Fin 128) (h g : Fin 32) :
    reduces_S128x32x32_S128x32.lift (ix2 ρ h) g = ix3 ρ h g :=
  funext fun ax => Fin.ext (by
    match ax with
    | ⟨0, _⟩ => rfl
    | ⟨1, _⟩ => rfl
    | ⟨2, _⟩ => rfl)

/-! ## The batched product of query heads with key heads

Axis 0 of both operands is the batch axis (the row), axis 1 the head, axis 2 the contracted feature. -/

theorem qk_lhs_0 (i : S128x32x32.Idx) (q : dot_S128x32x64_S128x32x64_S128x32x32_2_2_1_1_0_0.contr.Idx) :
    (dot_S128x32x64_S128x32x64_S128x32x32_2_2_1_1_0_0.lhsIdx i q 0).val = (i 0).val := by
  unfold DotDims.lhsIdx
  rw [dif_pos (show (0 : Fin S128x32x64.rank) ∈ dot_S128x32x64_S128x32x64_S128x32x32_2_2_1_1_0_0.lhsBatch by decide)]
  rfl
theorem qk_lhs_1 (i : S128x32x32.Idx) (q : dot_S128x32x64_S128x32x64_S128x32x32_2_2_1_1_0_0.contr.Idx) :
    (dot_S128x32x64_S128x32x64_S128x32x32_2_2_1_1_0_0.lhsIdx i q 1).val = (i 1).val := by
  unfold DotDims.lhsIdx
  rw [dif_neg (show ¬(1 : Fin S128x32x64.rank) ∈ dot_S128x32x64_S128x32x64_S128x32x32_2_2_1_1_0_0.lhsBatch by decide),
    dif_pos (show (1 : Fin S128x32x64.rank) ∈ dot_S128x32x64_S128x32x64_S128x32x32_2_2_1_1_0_0.lhsNonContracting by decide)]
  rfl
theorem qk_lhs_2 (i : S128x32x32.Idx) (q : dot_S128x32x64_S128x32x64_S128x32x32_2_2_1_1_0_0.contr.Idx) :
    (dot_S128x32x64_S128x32x64_S128x32x32_2_2_1_1_0_0.lhsIdx i q 2).val = (q ⟨0, by decide⟩).val :=
  dot_S128x32x64_S128x32x64_S128x32x32_2_2_1_1_0_0.lhsIdx_val_of_single rfl i q
theorem qk_rhs_0 (i : S128x32x32.Idx) (q : dot_S128x32x64_S128x32x64_S128x32x32_2_2_1_1_0_0.contr.Idx) :
    (dot_S128x32x64_S128x32x64_S128x32x32_2_2_1_1_0_0.rhsIdx i q 0).val = (i 0).val := by
  unfold DotDims.rhsIdx
  rw [dif_pos (show (0 : Fin S128x32x64.rank) ∈ dot_S128x32x64_S128x32x64_S128x32x32_2_2_1_1_0_0.rhsBatch by decide)]
  rfl
theorem qk_rhs_1 (i : S128x32x32.Idx) (q : dot_S128x32x64_S128x32x64_S128x32x32_2_2_1_1_0_0.contr.Idx) :
    (dot_S128x32x64_S128x32x64_S128x32x32_2_2_1_1_0_0.rhsIdx i q 1).val = (i 2).val := by
  unfold DotDims.rhsIdx
  rw [dif_neg (show ¬(1 : Fin S128x32x64.rank) ∈ dot_S128x32x64_S128x32x64_S128x32x32_2_2_1_1_0_0.rhsBatch by decide),
    dif_pos (show (1 : Fin S128x32x64.rank) ∈ dot_S128x32x64_S128x32x64_S128x32x32_2_2_1_1_0_0.rhsNonContracting by decide)]
  rfl
theorem qk_rhs_2 (i : S128x32x32.Idx) (q : dot_S128x32x64_S128x32x64_S128x32x32_2_2_1_1_0_0.contr.Idx) :
    (dot_S128x32x64_S128x32x64_S128x32x32_2_2_1_1_0_0.rhsIdx i q 2).val = (q ⟨0, by decide⟩).val :=
  dot_S128x32x64_S128x32x64_S128x32x32_2_2_1_1_0_0.rhsIdx_val_of_single rfl i q

/-- Row by row, query head `h` against key head `g`: the sum over the 64 features of the products. -/
theorem qk_apply (a b : FVec Ideal S128x32x64 .bf16) (ρ : Fin 128) (h g : Fin 32) :
    matmul dot_S128x32x64_S128x32x64_S128x32x32_2_2_1_1_0_0 none a b (constant (F := Ideal) S128x32x32 .f32 0x00000000#32) (ix3 ρ h g)
      = ∑ d : Fin 64, a (ix3 ρ h d) * b (ix3 ρ g d) := by
  simp only [matmul]
  rw [Ideal.matmul_constant_zero_apply, ← Equiv.sum_comp (contrEquiv1 dot_S128x32x64_S128x32x64_S128x32x32_2_2_1_1_0_0 64 rfl rfl).symm]
  refine Finset.sum_congr rfl fun d _ => ?_
  have hd := contrEquiv1_symm_val dot_S128x32x64_S128x32x64_S128x32x32_2_2_1_1_0_0 64 rfl rfl d
  have el : dot_S128x32x64_S128x32x64_S128x32x32_2_2_1_1_0_0.lhsIdx (ix3 ρ h g) ((contrEquiv1 dot_S128x32x64_S128x32x64_S128x32x32_2_2_1_1_0_0 64 rfl rfl).symm d) = ix3 ρ h d :=
    funext fun ax => Fin.ext (by
      match ax with
      | ⟨0, _⟩ => exact qk_lhs_0 _ _
      | ⟨1, _⟩ => exact qk_lhs_1 _ _
      | ⟨2, _⟩ => exact (qk_lhs_2 _ _).trans hd)
  have er : dot_S128x32x64_S128x32x64_S128x32x32_2_2_1_1_0_0.rhsIdx (ix3 ρ h g) ((contrEquiv1 dot_S128x32x64_S128x32x64_S128x32x32_2_2_1_1_0_0 64 rfl rfl).symm d) = ix3 ρ g d :=
    funext fun ax => Fin.ext (by
      match ax with
      | ⟨0, _⟩ => exact qk_rhs_0 _ _
      | ⟨1, _⟩ => exact qk_rhs_1 _ _
      | ⟨2, _⟩ => exact (qk_rhs_2 _ _).trans hd)
  rw [el, er]

/-! ## The stages of the body's score computation, as functions of the rows' query and key outputs -/

/-- The body's scaled scores: the outputs read as heads, the batched product, times the word of one eighth. -/
def scoreV (q k : FVec Ideal S128x2048 .f32) : FVec Ideal S128x32x32 .f32 :=
  mulf (matmul dot_S128x32x64_S128x32x64_S128x32x32_2_2_1_1_0_0 none
      (truncf .bf16 (shapeCast S128x32x64 q shapeCasts_S128x2048_S128x32x64 : FVec Ideal S128x32x64 .f32) bitsLt_bf16_f32)
      (truncf .bf16 (shapeCast S128x32x64 k shapeCasts_S128x2048_S128x32x64 : FVec Ideal S128x32x64 .f32) bitsLt_bf16_f32)
      (constant (F := Ideal) S128x32x32 .f32 0x00000000#32))
    (broadcast S128x32x32 (Scalar.ofBits (F := Ideal) .f32 0x3E000000#32))

theorem scoreV_apply (q k : FVec Ideal S128x2048 .f32) (ρ : Fin 128) (h g : Fin 32) :
    scoreV q k (ix3 ρ h g)
      = Cert.RowAttn.score Cert.RowAttn.kerScale (fun j => q (ix2 ρ j)) (fun j => k (ix2 ρ j)) h g := by
  unfold scoreV
  rw [mulf_apply, qk_apply, broadcast_apply]
  simp only [truncf_apply, heads_apply]
  rfl

/-- The body's largest score per query head: the lane maximum from `-∞`, and once more against `-∞`. -/
def topV (s : FVec Ideal S128x32x32 .f32) : FVec Ideal S128x32 .f32 :=
  maximumf (broadcast S128x32 (Scalar.ofBits (F := Ideal) .f32 0xFF800000#32))
    (multiReduction (F := Ideal) .maximumf [2] S128x32 s 0xFF800000#32 reduces_S128x32x32_S128x32 (.inl rfl) rfl)

theorem topV_apply (s : FVec Ideal S128x32x32 .f32) (ρ : Fin 128) (h : Fin 32) :
    topV s (ix2 ρ h)
      = max Cert.RowAttn.negInf ((Finset.univ : Finset (Fin 32)).fold max Cert.RowAttn.negInf (fun g => s (ix3 ρ h g))) := by
  unfold topV
  rw [maximumf_apply, broadcast_apply]
  refine congrArg (max Cert.RowAttn.negInf) ?_
  refine (Ideal.multiReduction_maximumf_single s 0xFF800000#32 reduces_S128x32x32_S128x32 (.inl rfl) rfl (ix2 ρ h)).trans ?_
  exact congrArg ((Finset.univ : Finset (Fin 32)).fold max Cert.RowAttn.negInf) (funext fun g => congrArg s (lane_lift ρ h g))

/-- An exponential at an index is the exponential of the element. -/
theorem exp_apply {s : Shape} {φ : FTy} (a : FVec Ideal s φ) (i : s.Idx) : exp a i = Ideal.exp (a i) := rfl

/-- The body's exponentials of the shifted scores. -/
def exV (q k : FVec Ideal S128x2048 .f32) : FVec Ideal S128x32x32 .f32 :=
  exp (subf (scoreV q k)
    (broadcastTo S128x32x32 (shapeCast S128x32x1 (topV (scoreV q k)) shapeCasts_S128x32_S128x32x1 : FVec Ideal S128x32x1 .f32)
      broadcasts_S128x32x1_S128x32x32))

theorem exV_apply (q k : FVec Ideal S128x2048 .f32) (ρ : Fin 128) (h g : Fin 32) :
    exV q k (ix3 ρ h g)
      = Cert.RowAttn.ex Cert.RowAttn.kerScale (fun j => q (ix2 ρ j)) (fun j => k (ix2 ρ j)) h g := by
  unfold exV
  rw [exp_apply, subf_apply, perHead_apply, topV_apply, scoreV_apply]
  simp only [scoreV_apply]
  rfl

/-- The payload the body carries out of its first part is `exV` of the two affine maps. -/
theorem pay4_eq (x0 : Vec Ideal S128x1024 .bf16) (x1 : Vec Ideal S1024x2048 .bf16) (x2 : Vec Ideal S2048 .f32)
    (x3 : Vec Ideal S1024x2048 .bf16) (x4 : Vec Ideal S2048 .f32) :
    k0_pay4 (F := Ideal) x0 x1 x2 x3 x4 = exV (affineV x0 x1 x2) (affineV x0 x3 x4) := rfl

/-- The exponentials of the shifted scores the body carries out of its first part, at row `ρ`, query head `h`, key head `g`. -/
theorem pay4_apply (x0 : Vec Ideal S128x1024 .bf16) (x1 : Vec Ideal S1024x2048 .bf16) (x2 : Vec Ideal S2048 .f32)
    (x3 : Vec Ideal S1024x2048 .bf16) (x4 : Vec Ideal S2048 .f32) (ρ : Fin 128) (h g : Fin 32) :
    k0_pay4 (F := Ideal) x0 x1 x2 x3 x4 (ix3 ρ h g)
      = Cert.RowAttn.ex Cert.RowAttn.kerScale (Cert.RowAttn.bhead x0 x1 x2 ρ) (Cert.RowAttn.bhead x0 x3 x4 ρ) h g := by
  rw [pay4_eq, exV_apply]
  have eq : (fun j => affineV x0 x1 x2 (ix2 ρ j)) = Cert.RowAttn.bhead x0 x1 x2 ρ := funext fun j => affineV_apply x0 x1 x2 ρ j
  have ek : (fun j => affineV x0 x3 x4 (ix2 ρ j)) = Cert.RowAttn.bhead x0 x3 x4 ρ := funext fun j => affineV_apply x0 x3 x4 ρ j
  rw [eq, ek]

/-! ## The weights and the mixing product -/

/-- The body's softmax weights: each exponential over the lane sum of its query head's exponentials. -/
def weightV (e : FVec Ideal S128x32x32 .f32) : FVec Ideal S128x32x32 .f32 :=
  divf e
    (broadcastTo S128x32x32
      (shapeCast S128x32x1
        (multiReduction (F := Ideal) .add [2] S128x32 e 0x00000000#32 reduces_S128x32x32_S128x32 (.inl rfl) rfl)
        shapeCasts_S128x32_S128x32x1 : FVec Ideal S128x32x1 .f32)
      broadcasts_S128x32x1_S128x32x32)

theorem weightV_apply (e : FVec Ideal S128x32x32 .f32) (ρ : Fin 128) (h g : Fin 32) :
    weightV e (ix3 ρ h g) = Ideal.div (e (ix3 ρ h g)) (∑ g' : Fin 32, e (ix3 ρ h g')) := by
  unfold weightV
  rw [divf_apply, perHead_apply]
  refine congrArg (Ideal.div (e (ix3 ρ h g))) ?_
  refine (Ideal.multiReduction_add_single e 0x00000000#32 reduces_S128x32x32_S128x32 (.inl rfl) rfl (ix2 ρ h)).trans ?_
  exact Finset.sum_congr rfl fun g' _ => congrArg e (lane_lift ρ h g')

/-- The weights with rows and query heads flattened: row `ρ·32 + h` of the result is query head `h` of block row `ρ`. -/
theorem flatRows_apply {α : Type} (w : S128x32x32.Idx → α) (ρ : Fin 128) (h g : Fin 32) :
    shapeCast S4096x32 w shapeCasts_S128x32x32_S4096x32 (ix2 (⟨ρ.val * 32 + h.val, by omega⟩ : Fin 4096) g) = w (ix3 ρ h g) :=
  shapeCast_apply w shapeCasts_S128x32x32_S4096x32 (ix2 (⟨ρ.val * 32 + h.val, by omega⟩ : Fin 4096) g) (ix3 ρ h g) (by
    rw [Shape.rowMajor_val_two, Shape.rowMajor_val_three]
    show (ρ.val * 32 + h.val) * 32 + g.val = (ρ.val * 32 + h.val) * 32 + g.val
    rfl)

theorem wv_lhs_0 (i : S4096x64.Idx) (q : dot_S4096x32_S32x64_S4096x64_1_0_0_1_n_n.contr.Idx) :
    (dot_S4096x32_S32x64_S4096x64_1_0_0_1_n_n.lhsIdx i q 0).val = (i 0).val := by
  unfold DotDims.lhsIdx
  rw [dif_neg (show ¬(0 : Fin S4096x32.rank) ∈ dot_S4096x32_S32x64_S4096x64_1_0_0_1_n_n.lhsBatch by decide),
    dif_pos (show (0 : Fin S4096x32.rank) ∈ dot_S4096x32_S32x64_S4096x64_1_0_0_1_n_n.lhsNonContracting by decide)]
  rfl
theorem wv_lhs_1 (i : S4096x64.Idx) (q : dot_S4096x32_S32x64_S4096x64_1_0_0_1_n_n.contr.Idx) :
    (dot_S4096x32_S32x64_S4096x64_1_0_0_1_n_n.lhsIdx i q 1).val = (q ⟨0, by decide⟩).val :=
  dot_S4096x32_S32x64_S4096x64_1_0_0_1_n_n.lhsIdx_val_of_single rfl i q
theorem wv_rhs_0 (i : S4096x64.Idx) (q : dot_S4096x32_S32x64_S4096x64_1_0_0_1_n_n.contr.Idx) :
    (dot_S4096x32_S32x64_S4096x64_1_0_0_1_n_n.rhsIdx i q 0).val = (q ⟨0, by decide⟩).val :=
  dot_S4096x32_S32x64_S4096x64_1_0_0_1_n_n.rhsIdx_val_of_single rfl i q
theorem wv_rhs_1 (i : S4096x64.Idx) (q : dot_S4096x32_S32x64_S4096x64_1_0_0_1_n_n.contr.Idx) :
    (dot_S4096x32_S32x64_S4096x64_1_0_0_1_n_n.rhsIdx i q 1).val = (i 1).val := by
  unfold DotDims.rhsIdx
  rw [dif_neg (show ¬(1 : Fin S32x64.rank) ∈ dot_S4096x32_S32x64_S4096x64_1_0_0_1_n_n.rhsBatch by decide),
    dif_pos (show (1 : Fin S32x64.rank) ∈ dot_S4096x32_S32x64_S4096x64_1_0_0_1_n_n.rhsNonContracting by decide)]
  rfl

/-- The flattened weights times the 32 value rows, into the zero accumulator, at row `r` and feature `d`: the sum
    over the key heads. -/
theorem wv_apply (a : FVec Ideal S4096x32 .bf16) (v : FVec Ideal S32x64 .bf16) (r : Fin 4096) (d : Fin 64) :
    matmul dot_S4096x32_S32x64_S4096x64_1_0_0_1_n_n none a v (constant (F := Ideal) S4096x64 .f32 0x00000000#32) (ix2 r d)
      = ∑ g : Fin 32, a (ix2 r g) * v (ix2 g d) := by
  simp only [matmul]
  rw [Ideal.matmul_constant_zero_apply, ← Equiv.sum_comp (contrEquiv1 dot_S4096x32_S32x64_S4096x64_1_0_0_1_n_n 32 rfl rfl).symm]
  refine Finset.sum_congr rfl fun g _ => ?_
  have hg := contrEquiv1_symm_val dot_S4096x32_S32x64_S4096x64_1_0_0_1_n_n 32 rfl rfl g
  have el : dot_S4096x32_S32x64_S4096x64_1_0_0_1_n_n.lhsIdx (ix2 r d) ((contrEquiv1 dot_S4096x32_S32x64_S4096x64_1_0_0_1_n_n 32 rfl rfl).symm g) = ix2 r g :=
    funext fun ax => Fin.ext (by
      match ax with
      | ⟨0, _⟩ => exact wv_lhs_0 _ _
      | ⟨1, _⟩ => exact (wv_lhs_1 _ _).trans hg)
  have er : dot_S4096x32_S32x64_S4096x64_1_0_0_1_n_n.rhsIdx (ix2 r d) ((contrEquiv1 dot_S4096x32_S32x64_S4096x64_1_0_0_1_n_n 32 rfl rfl).symm g) = ix2 g d :=
    funext fun ax => Fin.ext (by
      match ax with
      | ⟨0, _⟩ => exact (wv_rhs_0 _ _).trans hg
      | ⟨1, _⟩ => exact wv_rhs_1 _ _)
  rw [el, er]

/-- The payload the body stores to the second result's block is the mixing product of the flattened weights with the value rows. -/
theorem pay1_eq (e : FVec Ideal S128x32x32 .f32) (x7 : Vec Ideal S32x64 .f32) :
    k0_pay1 (F := Ideal) e x7
      = matmul dot_S4096x32_S32x64_S4096x64_1_0_0_1_n_n none
          (truncf .bf16 (shapeCast S4096x32 (weightV e) shapeCasts_S128x32x32_S4096x32 : FVec Ideal S4096x32 .f32) bitsLt_bf16_f32)
          (truncf .bf16 (shapeCast S32x64 x7 shapeCasts_S32x64_S32x64 : FVec Ideal S32x64 .f32) bitsLt_bf16_f32)
          (constant (F := Ideal) S4096x64 .f32 0x00000000#32) := rfl

/-- That payload at row `ρ·32 + h` and feature `d`, over any exponentials `e`: the weights of query head `h` of block
    row `ρ` mixing the value rows. -/
theorem pay1_read (e : FVec Ideal S128x32x32 .f32) (x7 : Vec Ideal S32x64 .f32) (ρ : Fin 128) (h : Fin 32) (d : Fin 64) :
    k0_pay1 (F := Ideal) e x7 (ix2 (⟨ρ.val * 32 + h.val, by omega⟩ : Fin 4096) d)
      = ∑ g : Fin 32, Ideal.div (e (ix3 ρ h g)) (∑ g' : Fin 32, e (ix3 ρ h g')) * x7 (ix2 g d) := by
  rw [pay1_eq, wv_apply]
  refine Finset.sum_congr rfl fun g _ => ?_
  rw [truncf_apply, truncf_apply, flatRows_apply, weightV_apply, shapeCast_self]

/-- The mixed value rows the body stores to the second result's block: its row `ρ·32 + h` is query head `h` of block row `ρ`. -/
theorem pay1_apply (x0 : Vec Ideal S128x1024 .bf16) (x1 : Vec Ideal S1024x2048 .bf16) (x2 : Vec Ideal S2048 .f32)
    (x3 : Vec Ideal S1024x2048 .bf16) (x4 : Vec Ideal S2048 .f32) (x7 : Vec Ideal S32x64 .f32)
    (ρ : Fin 128) (h : Fin 32) (d : Fin 64) :
    (k0_pay1 (F := Ideal) (k0_pay4 (F := Ideal) x0 x1 x2 x3 x4) x7) (ix2 (⟨ρ.val * 32 + h.val, by omega⟩ : Fin 4096) d)
      = Cert.RowAttn.mix Cert.RowAttn.kerScale (Cert.RowAttn.bhead x0 x1 x2 ρ) (Cert.RowAttn.bhead x0 x3 x4 ρ)
          (fun g d' => x7 (ix2 g d')) h d := by
  rw [pay1_read]
  simp only [pay4_apply]
  rfl

end Cert.RowAttn.Body

end
-- ==== Proof.KernelBlocks.lean ====
/-
  Each window's block at a grid point, entry by entry: point `t` stages batch rows `128·t … 128·t + 127` of the rows;
  the weights, the biases and the value rows are staged whole at every point.
-/
import proofs.«411577_j11836929868572_2_alg».proof.Proof.Gen.KernelIdeal.Frame
import Idealize.ShloMosaic.Lib.Pipeline.Value
import Idealize.ShloMosaic.Lib.ValueIdx
import Idealize.ShloMosaic.Lib.Tactic

noncomputable section

namespace Cert.RowAttn.Ker

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The printed index maps over the grid: the row-blocked windows (the rows and both results) are at block `t` of axis 0,
    every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row `ρ` of the rows' block at point `t` is batch row `128·t + ρ`. -/
theorem rowsBlk_apply (c : Dev nD) (t : Fin cfg0.N) (x : S128x1024.Idx) (k : S4096x1024.Idx)
    (hk0 : (k 0).val = 128 * t.val + (x 0).val) (hk1 : (k 1).val = (x 1).val) :
    (iblk m c 0 t : Vec Ideal S128x1024 .bf16) x = (V m c main_v9 : Vec Ideal S4096x1024 .bf16) k := by
  have hi := index_facts t
  unfold iblk
  rw [View.read_apply]
  show V m c main_v9 _ = V m c main_v9 _
  congr 1
  funext a
  apply Fin.ext
  match a with
  | ⟨0, _⟩ => show win0_0.index t 0 * 128 + 1 * (x 0).val = (k 0).val; rw [hi.1, hk0]; omega
  | ⟨1, _⟩ => show win0_0.index t 1 * 1024 + 1 * (x 1).val = (k 1).val; rw [hi.2.1, hk1]; omega

/-- The query weights are staged whole. -/
theorem wqBlk_apply (c : Dev nD) (t : Fin cfg0.N) (y : S1024x2048.Idx) :
    (iblk m c 1 t : Vec Ideal S1024x2048 .bf16) y = (V m c main_v11 : Vec Ideal S1024x2048 .bf16) y := by
  have hi := index_facts t
  unfold iblk
  rw [View.read_apply]
  show V m c main_v11 _ = V m c main_v11 _
  congr 1
  funext a
  apply Fin.ext
  match a with
  | ⟨0, _⟩ => show win0_1.index t 0 * 1024 + 1 * (y 0).val = (y 0).val; rw [hi.2.2.1]; omega
  | ⟨1, _⟩ => show win0_1.index t 1 * 2048 + 1 * (y 1).val = (y 1).val; rw [hi.2.2.2.1]; omega

/-- The query bias is staged whole. -/
theorem bqBlk_apply (c : Dev nD) (t : Fin cfg0.N) (y : S2048.Idx) :
    (iblk m c 2 t : Vec Ideal S2048 .f32) y = (V m c main_arg4 : Vec Ideal S2048 .f32) y := by
  have hi := index_facts t
  unfold iblk
  rw [View.read_apply]
  show V m c main_arg4 _ = V m c main_arg4 _
  congr 1
  funext a
  apply Fin.ext
  match a with
  | ⟨0, _⟩ => show win0_2.index t 0 * 2048 + 1 * (y 0).val = (y 0).val; rw [hi.2.2.2.2.1]; omega

/-- The key weights are staged whole. -/
theorem wkBlk_apply (c : Dev nD) (t : Fin cfg0.N) (y : S1024x2048.Idx) :
    (iblk m c 3 t : Vec Ideal S1024x2048 .bf16) y = (V m c main_v13 : Vec Ideal S1024x2048 .bf16) y := by
  have hi := index_facts t
  unfold iblk
  rw [View.read_apply]
  show V m c main_v13 _ = V m c main_v13 _
  congr 1
  funext a
  apply Fin.ext
  match a with
  | ⟨0, _⟩ => show win0_3.index t 0 * 1024 + 1 * (y 0).val = (y 0).val; rw [hi.2.2.2.2.2.1]; omega
  | ⟨1, _⟩ => show win0_3.index t 1 * 2048 + 1 * (y 1).val = (y 1).val; rw [hi.2.2.2.2.2.2.1]; omega

/-- The key bias is staged whole. -/
theorem bkBlk_apply (c : Dev nD) (t : Fin cfg0.N) (y : S2048.Idx) :
    (iblk m c 4 t : Vec Ideal S2048 .f32) y = (V m c main_arg6 : Vec Ideal S2048 .f32) y := by
  have hi := index_facts t
  unfold iblk
  rw [View.read_apply]
  show V m c main_arg6 _ = V m c main_arg6 _
  congr 1
  funext a
  apply Fin.ext
  match a with
  | ⟨0, _⟩ => show win0_4.index t 0 * 2048 + 1 * (y 0).val = (y 0).val; rw [hi.2.2.2.2.2.2.2.1]; omega

/-- The value weights are staged whole. -/
theorem wvBlk_apply (c : Dev nD) (t : Fin cfg0.N) (y : S1024x2048.Idx) :
    (iblk m c 5 t : Vec Ideal S1024x2048 .bf16) y = (V m c main_v15 : Vec Ideal S1024x2048 .bf16) y := by
  have hi := index_facts t
  unfold iblk
  rw [View.read_apply]
  show V m c main_v15 _ = V m c main_v15 _
  congr 1
  funext a
  apply Fin.ext
  match a with
  | ⟨0, _⟩ => show win0_5.index t 0 * 1024 + 1 * (y 0).val = (y 0).val; rw [hi.2.2.2.2.2.2.2.2.1]; omega
  | ⟨1, _⟩ => show win0_5.index t 1 * 2048 + 1 * (y 1).val = (y 1).val; rw [hi.2.2.2.2.2.2.2.2.2.1]; omega

/-- The value bias is staged whole. -/
theorem bvBlk_apply (c : Dev nD) (t : Fin cfg0.N) (y : S2048.Idx) :
    (iblk m c 6 t : Vec Ideal S2048 .f32) y = (V m c main_arg8 : Vec Ideal S2048 .f32) y := by
  have hi := index_facts t
  unfold iblk
  rw [View.read_apply]
  show V m c main_arg8 _ = V m c main_arg8 _
  congr 1
  funext a
  apply Fin.ext
  match a with
  | ⟨0, _⟩ => show win0_6.index t 0 * 2048 + 1 * (y 0).val = (y 0).val; rw [hi.2.2.2.2.2.2.2.2.2.2.1]; omega

/-- The value rows are staged whole. -/
theorem svBlk_apply (c : Dev nD) (t : Fin cfg0.N) (y : S32x64.Idx) :
    (iblk m c 7 t : Vec Ideal S32x64 .f32) y = (V m c main_v8 : Vec Ideal S32x64 .f32) y := by
  have hi := index_facts t
  unfold iblk
  rw [View.read_apply]
  show V m c main_v8 _ = V m c main_v8 _
  congr 1
  funext a
  apply Fin.ext
  match a with
  | ⟨0, _⟩ => show win0_7.index t 0 * 32 + 1 * (y 0).val = (y 0).val; rw [hi.2.2.2.2.2.2.2.2.2.2.2.1]; omega
  | ⟨1, _⟩ => show win0_7.index t 1 * 64 + 1 * (y 1).val = (y 1).val; rw [hi.2.2.2.2.2.2.2.2.2.2.2.2.1]; omega

end Cert.RowAttn.Ker

end
-- ==== Proof.KernelValueOut.lean ====
/-
  The first result array after the launch. Point `t` writes back a block of 128 rows: row `ρ` of it is batch row
  `128·t + ρ` through the value map (transposed weights). The 32 blocks tile the array, so the array ends holding
  every batch row's value outputs.
-/
import proofs.«411577_j11836929868572_2_alg».proof.Proof.Gen.KernelIdeal.Frame
import proofs.«411577_j11836929868572_2_alg».proof.Proof.RowAttention
import proofs.«411577_j11836929868572_2_alg».proof.Proof.BlockForms
import proofs.«411577_j11836929868572_2_alg».proof.Proof.BodyReading
import proofs.«411577_j11836929868572_2_alg».proof.Proof.KernelBlocks
import Idealize.ShloMosaic.Lib.Pipeline.Value
import Idealize.ShloMosaic.Lib.Tactic

noncomputable section

namespace Cert.RowAttn.Ker

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The first result: every batch row's value outputs, over the arrays the launch reads. -/
def valueOut (c : Dev nD) : S4096x2048.Idx → EReal := fun i =>
  headT (V m c main_v9 : Vec Ideal S4096x1024 .bf16) (V m c main_v15 : Vec Ideal S1024x2048 .bf16)
    (V m c main_arg8 : Vec Ideal S2048 .f32) (i 0) (i 1)

/-- What point `t` writes back to the first result is block `t` of `valueOut`. -/
theorem flushed8_eq (c : Dev nD) (t : Fin cfg0.N) :
    (dats m 0 c).flushed 8 t = ((cfg0.win 8).blk t).view.read (Elt Ideal) (valueOut m c) := by
  obtain ⟨h00, h01, h10, h11, h20, h30, h31, h40, h50, h51, h60, h70, h71, h80, h81, h90, h91⟩ := index_facts t
  show (cfg0.win 8).cut (grid0.coords t) ((dats m 0 c).after 8 t) = _
  rw [after0_8]
  unfold out0_8
  rw [View.canon_unit_zero hz2]
  simp only [View.ld_unit_zero (S := S128x1024) hz2, View.ld_unit_zero (S := S1024x2048) hz2, View.ld_unit_zero (S := S2048) hz1]
  funext y
  obtain ⟨ρ, j, rfl⟩ : ∃ (ρ : Fin 128) (j : Fin 2048), y = ix2 ρ j := ⟨y 0, y 1, eq_ix2 y⟩
  show (k0_pay3 (F := Ideal) (iblk m c 0 t) (iblk m c 5 t) (iblk m c 6 t)) (ix2 ρ j)
    = valueOut m c (((cfg0.win 8).blk t).view.emb (ix2 ρ j))
  refine (Body.pay3_apply (iblk m c 0 t) (iblk m c 5 t) (iblk m c 6 t) ρ j).trans ?_
  have hr : ((((cfg0.win 8).blk t).view.emb (ix2 ρ j)) 0).val = 128 * t.val + ρ.val := by
    show win0_8.index t 0 * 128 + 1 * ρ.val = _
    rw [h80]; omega
  have hj : (((cfg0.win 8).blk t).view.emb (ix2 ρ j)) 1 = j := Fin.ext (by
    show win0_8.index t 1 * 2048 + 1 * j.val = j.val
    rw [h81]; omega)
  unfold valueOut
  rw [hj]
  exact congrFun (bhead_eq_headT (iblk m c 0 t) (iblk m c 5 t) (iblk m c 6 t)
    (V m c main_v9 : Vec Ideal S4096x1024 .bf16) (V m c main_v15 : Vec Ideal S1024x2048 .bf16) (V m c main_arg8 : Vec Ideal S2048 .f32)
    ρ ((((cfg0.win 8).blk t).view.emb (ix2 ρ j)) 0)
    (fun e => rowsBlk_apply m c t (ix2 ρ e) (ix2 ((((cfg0.win 8).blk t).view.emb (ix2 ρ j)) 0) e) hr rfl)
    (fun e j' => wvBlk_apply m c t (ix2 e j')) (fun j' => bvBlk_apply m c t (ix1 j'))) j

/-- An index of the first result is in point `t`'s block iff each coordinate is in the block's range. -/
theorem mem_blk8 (t : Fin cfg0.N) (i : S4096x2048.Idx) :
    i ∈ ((cfg0.win 8).blk t).view.set ↔ ∀ a : Fin 2, win0_8.index t a * S128x2048.size a ≤ (i a).val
      ∧ (i a).val < win0_8.index t a * S128x2048.size a + S128x2048.size a := by
  show i ∈ ((View.whole main_v16_0).slice (win0_8.rect t)).set ↔ _
  rw [View.set_slice_whole, Rect.mem_set_unit]
  exact Iff.rfl

/-- Row `r` of the first result is written by point `r / 128`. -/
theorem cover8 (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  have hN : cfg0.N = 32 := N_0
  refine ⟨⟨(i 0).val / 128, by rw [hN]; omega⟩, flush0_8 _, ?_⟩
  rw [mem_blk8]
  obtain ⟨h00, h01, h10, h11, h20, h30, h31, h40, h50, h51, h60, h70, h71, h80, h81, h90, h91⟩ :=
    index_facts ⟨(i 0).val / 128, by rw [hN]; omega⟩
  intro a
  match a with
  | ⟨0, _⟩ =>
    show win0_8.index _ 0 * 128 ≤ (i 0).val ∧ (i 0).val < win0_8.index _ 0 * 128 + 128
    rw [h80]; show (i 0).val / 128 * 128 ≤ (i 0).val ∧ (i 0).val < (i 0).val / 128 * 128 + 128; omega
  | ⟨1, _⟩ =>
    show win0_8.index _ 1 * 2048 ≤ (i 1).val ∧ (i 1).val < win0_8.index _ 1 * 2048 + 2048
    rw [h81]; omega

/-- The first result array after the launch. -/
theorem final8 (c : Dev nD) : (dats m 0 c).arrAt 8 cfg0.N = valueOut m c :=
  (dats m 0 c).arrAt_eq_of_cover 8 (valueOut m c) (fun t _ => flushed8_eq m c t) (cover8)

end Cert.RowAttn.Ker

end
-- ==== Proof.KernelMixOut.lean ====
/-
  The second result array after the launch, as the launch writes it: 131072 rows of 64 features, row `32·r + h` being
  query head `h` of batch row `r`. Point `t` writes back a block of 4096 such rows — its row `32·ρ + h` is head `h` of
  block row `ρ`, that is of batch row `128·t + ρ` — and the 32 blocks tile the array.
-/
import proofs.«411577_j11836929868572_2_alg».proof.Proof.Gen.KernelIdeal.Frame
import proofs.«411577_j11836929868572_2_alg».proof.Proof.RowAttention
import proofs.«411577_j11836929868572_2_alg».proof.Proof.BlockForms
import proofs.«411577_j11836929868572_2_alg».proof.Proof.BodyReading
import proofs.«411577_j11836929868572_2_alg».proof.Proof.KernelBlocks
import Idealize.ShloMosaic.Lib.Pipeline.Value
import Idealize.ShloMosaic.Lib.Tactic

noncomputable section

namespace Cert.RowAttn.Ker

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz2' : (![0, 0] : Fin 2 → Nat) = fun _ => 0 := funext fun a => by fin_cases a <;> rfl
theorem hz1' : (![0] : Fin 1 → Nat) = fun _ => 0 := funext fun a => by fin_cases a <;> rfl

/-- The batch row of a row of the second result. -/
def rowOf (R : Fin 131072) : Fin 4096 := ⟨R.val / 32, by omega⟩
/-- The query head of a row of the second result. -/
def headOf (R : Fin 131072) : Fin 32 := ⟨R.val % 32, by omega⟩

theorem rowOf_eq (R : Fin 131072) (r : Fin 4096) (h : Fin 32) (hR : R.val = r.val * 32 + h.val) : rowOf R = r :=
  Fin.ext (by show R.val / 32 = r.val; omega)
theorem headOf_eq (R : Fin 131072) (r : Fin 4096) (h : Fin 32) (hR : R.val = r.val * 32 + h.val) : headOf R = h :=
  Fin.ext (by show R.val % 32 = h.val; omega)

/-- The second result as written: each row's mixed value rows, over the arrays the launch reads. -/
def mixOut (c : Dev nD) : S131072x64.Idx → EReal := fun i =>
  mix kerScale
    (headT (V m c main_v9 : Vec Ideal S4096x1024 .bf16) (V m c main_v11 : Vec Ideal S1024x2048 .bf16)
      (V m c main_arg4 : Vec Ideal S2048 .f32) (rowOf (i 0)))
    (headT (V m c main_v9 : Vec Ideal S4096x1024 .bf16) (V m c main_v13 : Vec Ideal S1024x2048 .bf16)
      (V m c main_arg6 : Vec Ideal S2048 .f32) (rowOf (i 0)))
    (fun g d => (V m c main_v8 : Vec Ideal S32x64 .f32) (ix2 g d)) (headOf (i 0)) (i 1)

/-- What point `t` writes back to the second result is block `t` of `mixOut`. -/
theorem flushed9_eq (c : Dev nD) (t : Fin cfg0.N) :
    (dats m 0 c).flushed 9 t = ((cfg0.win 9).blk t).view.read (Elt Ideal) (mixOut m c) := by
  obtain ⟨h00, h01, h10, h11, h20, h30, h31, h40, h50, h51, h60, h70, h71, h80, h81, h90, h91⟩ := index_facts t
  have hN : cfg0.N = 32 := N_0
  have ht : t.val < 32 := hN ▸ t.isLt
  show (cfg0.win 9).cut (grid0.coords t) ((dats m 0 c).after 9 t) = _
  rw [after0_9]
  unfold out0_9
  rw [View.canon_unit_zero hz2']
  simp only [View.ld_unit_zero (S := S128x1024) hz2', View.ld_unit_zero (S := S1024x2048) hz2',
    View.ld_unit_zero (S := S2048) hz1', View.ld_unit_zero (S := S32x64) hz2']
  funext y
  obtain ⟨ρ', d, rfl⟩ : ∃ (ρ' : Fin 4096) (d : Fin 64), y = ix2 ρ' d := ⟨y 0, y 1, eq_ix2 y⟩
  obtain ⟨ρ, h, rfl⟩ : ∃ (ρ : Fin 128) (h : Fin 32), ρ' = ⟨ρ.val * 32 + h.val, by omega⟩ :=
    ⟨⟨ρ'.val / 32, by omega⟩, ⟨ρ'.val % 32, by omega⟩, Fin.ext (by show ρ'.val = ρ'.val / 32 * 32 + ρ'.val % 32; omega)⟩
  show (k0_pay1 (F := Ideal) (k0_pay4 (F := Ideal) (iblk m c 0 t) (iblk m c 1 t) (iblk m c 2 t) (iblk m c 3 t) (iblk m c 4 t))
      (iblk m c 7 t)) (ix2 (⟨ρ.val * 32 + h.val, by omega⟩ : Fin 4096) d)
    = mixOut m c (((cfg0.win 9).blk t).view.emb (ix2 (⟨ρ.val * 32 + h.val, by omega⟩ : Fin 4096) d))
  refine (Body.pay1_apply (iblk m c 0 t) (iblk m c 1 t) (iblk m c 2 t) (iblk m c 3 t) (iblk m c 4 t) (iblk m c 7 t) ρ h d).trans ?_
  have hR : ((((cfg0.win 9).blk t).view.emb (ix2 (⟨ρ.val * 32 + h.val, by omega⟩ : Fin 4096) d)) 0).val
      = (128 * t.val + ρ.val) * 32 + h.val := by
    show win0_9.index t 0 * 4096 + 1 * (ρ.val * 32 + h.val) = _
    rw [h90]; omega
  have hd : (((cfg0.win 9).blk t).view.emb (ix2 (⟨ρ.val * 32 + h.val, by omega⟩ : Fin 4096) d)) 1 = d := Fin.ext (by
    show win0_9.index t 1 * 64 + 1 * d.val = d.val
    rw [h91]; omega)
  unfold mixOut
  rw [hd, rowOf_eq _ (⟨128 * t.val + ρ.val, by omega⟩ : Fin 4096) h hR, headOf_eq _ (⟨128 * t.val + ρ.val, by omega⟩ : Fin 4096) h hR]
  have eq : bhead (iblk m c 0 t) (iblk m c 1 t) (iblk m c 2 t) ρ
      = headT (V m c main_v9 : Vec Ideal S4096x1024 .bf16) (V m c main_v11 : Vec Ideal S1024x2048 .bf16)
          (V m c main_arg4 : Vec Ideal S2048 .f32) (⟨128 * t.val + ρ.val, by omega⟩ : Fin 4096) :=
    bhead_eq_headT (iblk m c 0 t) (iblk m c 1 t) (iblk m c 2 t) _ _ _ ρ _
      (fun e => rowsBlk_apply m c t (ix2 ρ e) (ix2 (⟨128 * t.val + ρ.val, by omega⟩ : Fin 4096) e) rfl rfl)
      (fun e j' => wqBlk_apply m c t (ix2 e j')) (fun j' => bqBlk_apply m c t (ix1 j'))
  have ek : bhead (iblk m c 0 t) (iblk m c 3 t) (iblk m c 4 t) ρ
      = headT (V m c main_v9 : Vec Ideal S4096x1024 .bf16) (V m c main_v13 : Vec Ideal S1024x2048 .bf16)
          (V m c main_arg6 : Vec Ideal S2048 .f32) (⟨128 * t.val + ρ.val, by omega⟩ : Fin 4096) :=
    bhead_eq_headT (iblk m c 0 t) (iblk m c 3 t) (iblk m c 4 t) _ _ _ ρ _
      (fun e => rowsBlk_apply m c t (ix2 ρ e) (ix2 (⟨128 * t.val + ρ.val, by omega⟩ : Fin 4096) e) rfl rfl)
      (fun e j' => wkBlk_apply m c t (ix2 e j')) (fun j' => bkBlk_apply m c t (ix1 j'))
  have ev : (fun (g : Fin 32) (d' : Fin 64) => (iblk m c 7 t : Vec Ideal S32x64 .f32) (ix2 g d'))
      = fun g d' => (V m c main_v8 : Vec Ideal S32x64 .f32) (ix2 g d') :=
    funext fun g => funext fun d' => svBlk_apply m c t (ix2 g d')
  rw [eq, ek, ev]

/-- An index of the second result is in point `t`'s block iff each coordinate is in the block's range. -/
theorem mem_blk9 (t : Fin cfg0.N) (i : S131072x64.Idx) :
    i ∈ ((cfg0.win 9).blk t).view.set ↔ ∀ a : Fin 2, win0_9.index t a * S4096x64.size a ≤ (i a).val
      ∧ (i a).val < win0_9.index t a * S4096x64.size a + S4096x64.size a := by
  show i ∈ ((View.whole main_v16_1).slice (win0_9.rect t)).set ↔ _
  rw [View.set_slice_whole, Rect.mem_set_unit]
  exact Iff.rfl

/-- Row `R` of the second result is written by point `R / 4096`. -/
theorem cover9 (i : S131072x64.Idx) : ∃ t : Fin cfg0.N, (cfg0.win 9).flush t = true ∧ i ∈ ((cfg0.win 9).blk t).view.set := by
  have hi0 : (i 0).val < 131072 := (i 0).isLt
  have hi1 : (i 1).val < 64 := (i 1).isLt
  have hN : cfg0.N = 32 := N_0
  refine ⟨⟨(i 0).val / 4096, by rw [hN]; omega⟩, flush0_9 _, ?_⟩
  rw [mem_blk9]
  obtain ⟨h00, h01, h10, h11, h20, h30, h31, h40, h50, h51, h60, h70, h71, h80, h81, h90, h91⟩ :=
    index_facts ⟨(i 0).val / 4096, by rw [hN]; omega⟩
  intro a
  match a with
  | ⟨0, _⟩ =>
    show win0_9.index _ 0 * 4096 ≤ (i 0).val ∧ (i 0).val < win0_9.index _ 0 * 4096 + 4096
    rw [h90]; show (i 0).val / 4096 * 4096 ≤ (i 0).val ∧ (i 0).val < (i 0).val / 4096 * 4096 + 4096; omega
  | ⟨1, _⟩ =>
    show win0_9.index _ 1 * 64 ≤ (i 1).val ∧ (i 1).val < win0_9.index _ 1 * 64 + 64
    rw [h91]; omega

/-- The second result array after the launch. -/
theorem final9 (c : Dev nD) : (dats m 0 c).arrAt 9 cfg0.N = mixOut m c :=
  (dats m 0 c).arrAt_eq_of_cover 9 (mixOut m c) (fun t _ => flushed9_eq m c t) (cover9)

end Cert.RowAttn.Ker

end
-- ==== Proof.KernelRun.lean ====
/-
  The kernel program's run, read: the first result is the launch's first array; the second is the launch's second
  array re-laid by the host from 131072 rows of 64 to 4096 rows of 2048, so that entry `(r, j)` is entry
  `(32·r + j / 64, j % 64)` of what the launch wrote; the arguments end unchanged.
-/
import proofs.«411577_j11836929868572_2_alg».proof.Proof.Gen.KernelIdeal.Frame
import proofs.«411577_j11836929868572_2_alg».proof.Proof.KernelValueOut
import proofs.«411577_j11836929868572_2_alg».proof.Proof.KernelMixOut
import Idealize.ShloMosaic.Lib.Pipeline.Value
import Idealize.ShloMosaic.Lib.StableHlo.Run
import Idealize.ShloMosaic.Lib.Tactic

noncomputable section

namespace Cert.RowAttn.Ker

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The second result: the launch's second array, re-laid. -/
def mixRes (c : Dev nD) : S4096x2048.Idx → EReal :=
  shapeCast S4096x2048 (mixOut m c) shapeCasts_S131072x64_S4096x2048

/-- The host line after the launch leaves the re-laid array. -/
theorem tail17 (c : Dev nD) :
    Pipeline.afterTail₀ cfgs (dats m) 0 (V0 m) [hostOps1] c main_v17 = mixRes m c := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.tc.devRef main_v16_1)
      = mixOut m c :=
    (Pipeline.withArrays_arr spec0 launch0.win.arr_inj c _ _ 9).trans (final9 m c)
  rw [e]
  rfl

/-- Entry `(r, j)` of the re-laid array. -/
theorem mixRes_apply (c : Dev nD) (i : S4096x2048.Idx) :
    mixRes m c i = mixOut m c (ix2 (⟨(i 0).val * 32 + (i 1).val / 64, by
        have h0 : (i 0).val < 4096 := (i 0).isLt; have h1 : (i 1).val < 2048 := (i 1).isLt; omega⟩ : Fin 131072)
      (⟨(i 1).val % 64, by omega⟩ : Fin 64)) := by
  unfold mixRes
  exact shapeCast_apply (mixOut m c) shapeCasts_S131072x64_S4096x2048 i _
    (by rewrite [Shape.rowMajor_val_two, Shape.rowMajor_val_two]
        have h0 : (i 0).val < 4096 := (i 0).isLt
        have h1 : (i 1).val < 2048 := (i 1).isLt
        show ((i 0).val * 32 + (i 1).val / 64) * 64 + (i 1).val % 64 = (i 0).val * 2048 + (i 1).val
        omega)

/-- The run, read. -/
theorem run (ρ : Dev nD → PrngReg) :
    θ_run defs (onTc (τ := τ) (main (F := Ideal))) ⟨m, fun _ => 0, ρ⟩ (fun r => ∀ c : Dev nD,
      r.2.mem ((c.tc : Thread nD τ).loc main_v16_0) = valueOut m c
      ∧ r.2.mem ((c.tc : Thread nD τ).loc main_v17) = mixRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 8).trans (final8 m c),
      ((h c).2 main_v17 (Pipeline.mem_restRefs_of main_v17 (by decide) (by decide))).trans (tail17 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c))),
      (((h c).2 main_arg5 (Pipeline.mem_restRefs_of main_arg5 (by decide) (by decide))).trans (W_main_arg5 m (dats m) c)),
      ((h c).1 4).trans (((dats m 0 c).arrAt_in 4 rfl _).trans ((A_eq m c 4).trans (V_main_arg6 m c))),
      (((h c).2 main_arg7 (Pipeline.mem_restRefs_of main_arg7 (by decide) (by decide))).trans (W_main_arg7 m (dats m) c)),
      ((h c).1 6).trans (((dats m 0 c).arrAt_in 6 rfl _).trans ((A_eq m c 6).trans (V_main_arg8 m c)))⟩)
    (run_main m ρ)

end Cert.RowAttn.Ker

end
-- ==== Proof.KernelSpec.lean ====
/-
  The kernel program's two results are the functions of RowAttention.lean of the taken rows and the weights: the launch
  reads the rows narrowed and the weight matrices transposed and narrowed, neither of which changes an entry on the
  extended reals, and its value rows are the specification's; row `32·r + h` of the launch's second array is head `h`
  of batch row `r`, so the re-laid array's entry `(r, j)` is head `j / 64`, feature `j % 64`. Under the precondition the
  taken rows are the plain gather at the wrapped index words.
-/
import proofs.«411577_j11836929868572_2_alg».proof.Proof.KernelInputs
import proofs.«411577_j11836929868572_2_alg».proof.Proof.KernelRun
import proofs.«411577_j11836929868572_2_alg».proof.Proof.BlockForms
import proofs.«411577_j11836929868572_2_alg».proof.Proof.HostPrefix
import proofs.«411577_j11836929868572_2_alg».proof.Proof.TakeInRange

noncomputable section

namespace Cert.RowAttn.Ker

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The staged rows, entry by entry, are the taken rows. -/
theorem stagedRows_apply (c : Dev nD) (r : Fin 4096) (e : Fin 1024) :
    (V m c main_v9 : Vec Ideal S4096x1024 .bf16) (ix2 r e) = rows m c (ix2 r e) := by
  rw [V_rows]; rfl

/-- The launch's affine maps are the specification's. -/
theorem headQ (c : Dev nD) (r : Fin 4096) :
    headT (V m c main_v9 : Vec Ideal S4096x1024 .bf16) (V m c main_v11 : Vec Ideal S1024x2048 .bf16) (V m c main_arg4 : Vec Ideal S2048 .f32) r
      = head (rows m c) (m ((c : Thread nD τ).loc main_arg3)) (m ((c : Thread nD τ).loc main_arg4)) r := by
  rw [V_main_arg4]
  exact headT_eq_head _ _ _ _ _ (fun r e => stagedRows_apply m c r e)
    (fun e j => by rw [V_wq]; exact Host.wT_apply _ e j) r

theorem headK (c : Dev nD) (r : Fin 4096) :
    headT (V m c main_v9 : Vec Ideal S4096x1024 .bf16) (V m c main_v13 : Vec Ideal S1024x2048 .bf16) (V m c main_arg6 : Vec Ideal S2048 .f32) r
      = head (rows m c) (m ((c : Thread nD τ).loc main_arg5)) (m ((c : Thread nD τ).loc main_arg6)) r := by
  rw [V_main_arg6]
  exact headT_eq_head _ _ _ _ _ (fun r e => stagedRows_apply m c r e)
    (fun e j => by rw [V_wk]; exact Host.wT_apply _ e j) r

theorem headV (c : Dev nD) (r : Fin 4096) :
    headT (V m c main_v9 : Vec Ideal S4096x1024 .bf16) (V m c main_v15 : Vec Ideal S1024x2048 .bf16) (V m c main_arg8 : Vec Ideal S2048 .f32) r
      = head (rows m c) (m ((c : Thread nD τ).loc main_arg7)) (m ((c : Thread nD τ).loc main_arg8)) r := by
  rw [V_main_arg8]
  exact headT_eq_head _ _ _ _ _ (fun r e => stagedRows_apply m c r e)
    (fun e j => by rw [V_wv]; exact Host.wT_apply _ e j) r

/-- The first result is the specification's. -/
theorem valueOut_eq (c : Dev nD) :
    valueOut m c = tvec (rows m c) (m ((c : Thread nD τ).loc main_arg7)) (m ((c : Thread nD τ).loc main_arg8)) := by
  funext i
  exact congrFun (headV m c (i 0)) (i 1)

/-- The second result is the specification's, with the kernel's scaling. -/
theorem mixRes_eq (c : Dev nD) :
    mixRes m c = cvec kerScale (rows m c) (m ((c : Thread nD τ).loc main_arg3)) (m ((c : Thread nD τ).loc main_arg4))
      (m ((c : Thread nD τ).loc main_arg5)) (m ((c : Thread nD τ).loc main_arg6))
      (m ((c : Thread nD τ).loc main_arg7)) (m ((c : Thread nD τ).loc main_arg8)) := by
  funext i
  have h0 : (i 0).val < 4096 := (i 0).isLt
  have h1 : (i 1).val < 2048 := (i 1).isLt
  rw [mixRes_apply]
  unfold mixOut cvec
  have er : rowOf (⟨(i 0).val * 32 + (i 1).val / 64, by omega⟩ : Fin 131072) = i 0 :=
    rowOf_eq _ (i 0) (hd (i 1)) rfl
  have eh : headOf (⟨(i 0).val * 32 + (i 1).val / 64, by omega⟩ : Fin 131072) = hd (i 1) :=
    headOf_eq _ (i 0) (hd (i 1)) rfl
  have ev : (fun (g : Fin 32) (d : Fin 64) => (V m c main_v8 : Vec Ideal S32x64 .f32) (ix2 g d))
      = sumv (rows m c) (m ((c : Thread nD τ).loc main_arg7)) (m ((c : Thread nD τ).loc main_arg8)) :=
    funext fun g => funext fun d => by rw [V_valueRows]; exact Host.valueRows_apply _ _ _ g d
  show mix kerScale (headT _ _ _ (rowOf _)) (headT _ _ _ (rowOf _)) _ (headOf _) (⟨(i 1).val % 64, _⟩ : Fin 64) = _
  rw [er, eh, ev]
  exact (congrArg (fun a => mix kerScale a _ _ (hd (i 1)) (ft (i 1))) (headQ m c (i 0))).trans
    (congrArg (fun b => mix kerScale _ b _ (hd (i 1)) (ft (i 1))) (headK m c (i 0)))

/-- Under the precondition the fill never applies: the taken rows are the gather at the wrapped words. -/
theorem rows_eq (h : Cert.Pre_KernelIdeal m) (c : Dev nD) :
    rows m c = Host.gather gather_S50257x1024_S4096x1_S4096x1024_1_0_n_n_0_1_11024 (m ((c : Thread nD τ).loc main_arg2))
      (Take.wrapIdx (m ((c : Thread nD τ).loc main_arg0))) :=
  Take.take_eq_gather _ _ (fun i => Take.range_of_pre m h c i)

end Cert.RowAttn.Ker

end
-- ==== Proof.RefReading.lean ====
/-
  The reference's two results, read one operation at a time, are the functions of RowAttention.lean of the gathered
  rows and the weights.

  Every level is stated at explicit coordinates (row `r`, column `j`, heads `h`, `g`, feature `d`): the three affine
  maps first, then the reshape of a row's 2048 outputs into 32 heads of 64 features, then one row's scores, their
  largest, the shifted exponentials, the softmax weights, the ten summed value rows and the mix, and last the
  reshape back to rows of 2048 columns.
-/
import proofs.«411577_j11836929868572_2_alg».proof.Proof.Gen.ReferenceIdeal.Read
import proofs.«411577_j11836929868572_2_alg».proof.Proof.RowAttention

noncomputable section

open scoped BigOperators

namespace Cert.RowAttn.Ref

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-! ## The three affine maps, read at a row and a column

Each map is the contraction of the gathered rows with the TRANSPOSED weight matrix plus the bias broadcast along
the rows; at row `r` and column `j` that is `Σ_e x[r,e]·W[j,e] + b[j]`. -/

section Maps

variable (x0 : (⟨S4096, .i32⟩ : BufTy).Contents (Elt Ideal)) (x2 : (⟨S50257x1024, .f32⟩ : BufTy).Contents (Elt Ideal))

/-- The gathered rows, as the specification's argument. -/
local notation "X" => val_main_v6 (F := Ideal) x0 x2

/-- The query outputs. -/
theorem queryHead_at (x3 : (⟨S2048x1024, .f32⟩ : BufTy).Contents (Elt Ideal)) (x4 : (⟨S2048, .f32⟩ : BufTy).Contents (Elt Ideal)) (r : Fin 4096) (j : Fin 2048) :
    val_main_v18 (F := Ideal) x0 x2 x3 x4 (ix2 r j) = head X x3 x4 r j := by
  rw [val_main_v18_apply, val_main_v15_apply, val_main_v17_apply, val_main_v16_apply, Ideal.addf_def]
  unfold head
  refine congrArg₂ (· + ·) (Finset.sum_congr rfl fun e _ => ?_) ?_
  · rw [val_main_v14_apply]
    refine congrArg₂ (· * ·) (congrArg _ ?_) (congrArg _ ?_)
    · exact funext fun a => by match a with | ⟨0, _⟩ => rfl | ⟨1, _⟩ => rfl
    · exact funext fun a => by match a with | ⟨0, _⟩ => rfl | ⟨1, _⟩ => rfl
  · exact congrArg x4 (funext fun a => by match a with | ⟨0, _⟩ => rfl)

/-- The key outputs. -/
theorem keyHead_at (x5 : (⟨S2048x1024, .f32⟩ : BufTy).Contents (Elt Ideal)) (x6 : (⟨S2048, .f32⟩ : BufTy).Contents (Elt Ideal)) (r : Fin 4096) (j : Fin 2048) :
    val_main_v24 (F := Ideal) x0 x2 x5 x6 (ix2 r j) = head X x5 x6 r j := by
  rw [val_main_v24_apply, val_main_v21_apply, val_main_v23_apply, val_main_v22_apply, Ideal.addf_def]
  unfold head
  refine congrArg₂ (· + ·) (Finset.sum_congr rfl fun e _ => ?_) ?_
  · rw [val_main_v20_apply]
    refine congrArg₂ (· * ·) (congrArg _ ?_) (congrArg _ ?_)
    · exact funext fun a => by match a with | ⟨0, _⟩ => rfl | ⟨1, _⟩ => rfl
    · exact funext fun a => by match a with | ⟨0, _⟩ => rfl | ⟨1, _⟩ => rfl
  · exact congrArg x6 (funext fun a => by match a with | ⟨0, _⟩ => rfl)

/-- The value outputs of every row: the first result. -/
theorem valueHead_at (x7 : (⟨S2048x1024, .f32⟩ : BufTy).Contents (Elt Ideal)) (x8 : (⟨S2048, .f32⟩ : BufTy).Contents (Elt Ideal)) (r : Fin 4096) (j : Fin 2048) :
    val_main_v55 (F := Ideal) x0 x2 x7 x8 (ix2 r j) = head X x7 x8 r j := by
  rw [val_main_v55_apply, val_main_v52_apply, val_main_v54_apply, val_main_v53_apply, Ideal.addf_def]
  unfold head
  refine congrArg₂ (· + ·) (Finset.sum_congr rfl fun e _ => ?_) ?_
  · rw [val_main_v51_apply]
    refine congrArg₂ (· * ·) (congrArg _ ?_) (congrArg _ ?_)
    · exact funext fun a => by match a with | ⟨0, _⟩ => rfl | ⟨1, _⟩ => rfl
    · exact funext fun a => by match a with | ⟨0, _⟩ => rfl | ⟨1, _⟩ => rfl
  · exact congrArg x8 (funext fun a => by match a with | ⟨0, _⟩ => rfl)

/-- The value outputs of the first ten rows (the slice of the gathered rows keeps rows `0 … 9` in place). -/
theorem valueTen_at (x7 : (⟨S2048x1024, .f32⟩ : BufTy).Contents (Elt Ideal)) (x8 : (⟨S2048, .f32⟩ : BufTy).Contents (Elt Ideal)) (s : Fin 10) (j : Fin 2048) :
    val_main_v46 (F := Ideal) x0 x2 x7 x8 (ix2 s j) = head X x7 x8 ⟨s.val, by omega⟩ j := by
  rw [val_main_v46_apply, val_main_v43_apply, val_main_v45_apply, val_main_v44_apply, Ideal.addf_def]
  unfold head
  refine congrArg₂ (· + ·) (Finset.sum_congr rfl fun e _ => ?_) ?_
  · rw [val_main_v41_apply, val_main_v42_apply]
    refine congrArg₂ (· * ·) (congrArg _ ?_) (congrArg _ ?_)
    · exact funext fun a => by match a with | ⟨0, _⟩ => rfl | ⟨1, _⟩ => rfl
    · exact funext fun a => by match a with | ⟨0, _⟩ => rfl | ⟨1, _⟩ => rfl
  · exact congrArg x8 (funext fun a => by match a with | ⟨0, _⟩ => rfl)

/-! ## The 2048 outputs of a row as 32 heads of 64 features

The reshape keeps the row-major position: feature `d` of head `h` of row `r` is column `h·64 + d` of row `r`. -/

/-- Row-major position `(r·32 + h)·64 + d` is row `r`, column `h·64 + d`, of a row of 2048. -/
theorem split_pos (r h d : Nat) (hh : h < 32) (hd : d < 64) :
    ((r * 32 + h) * 64 + d) / 2048 = r ∧ ((r * 32 + h) * 64 + d) % 2048 = h * 64 + d := by
  omega

theorem queryHead3_at (x3 : (⟨S2048x1024, .f32⟩ : BufTy).Contents (Elt Ideal)) (x4 : (⟨S2048, .f32⟩ : BufTy).Contents (Elt Ideal)) (r : Fin 4096) (h : Fin 32) (d : Fin 64) :
    val_main_v19 (F := Ideal) x0 x2 x3 x4 (ix3 r h d) = head X x3 x4 r (col h d) := by
  rw [val_main_v19_apply, ← queryHead_at]
  exact congrArg _ (funext fun a => Fin.ext (by
    match a with
    | ⟨0, _⟩ => exact (split_pos r.val h.val d.val h.isLt d.isLt).1
    | ⟨1, _⟩ => exact (split_pos r.val h.val d.val h.isLt d.isLt).2))

theorem keyHead3_at (x5 : (⟨S2048x1024, .f32⟩ : BufTy).Contents (Elt Ideal)) (x6 : (⟨S2048, .f32⟩ : BufTy).Contents (Elt Ideal)) (r : Fin 4096) (g : Fin 32) (d : Fin 64) :
    val_main_v25 (F := Ideal) x0 x2 x5 x6 (ix3 r g d) = head X x5 x6 r (col g d) := by
  rw [val_main_v25_apply, ← keyHead_at]
  exact congrArg _ (funext fun a => Fin.ext (by
    match a with
    | ⟨0, _⟩ => exact (split_pos r.val g.val d.val g.isLt d.isLt).1
    | ⟨1, _⟩ => exact (split_pos r.val g.val d.val g.isLt d.isLt).2))

theorem valueTen3_at (x7 : (⟨S2048x1024, .f32⟩ : BufTy).Contents (Elt Ideal)) (x8 : (⟨S2048, .f32⟩ : BufTy).Contents (Elt Ideal)) (s : Fin 10) (g : Fin 32) (d : Fin 64) :
    val_main_v47 (F := Ideal) x0 x2 x7 x8 (ix3 s g d) = head X x7 x8 ⟨s.val, by omega⟩ (col g d) := by
  rw [val_main_v47_apply, ← valueTen_at]
  exact congrArg _ (funext fun a => Fin.ext (by
    match a with
    | ⟨0, _⟩ => exact (split_pos s.val g.val d.val g.isLt d.isLt).1
    | ⟨1, _⟩ => exact (split_pos s.val g.val d.val g.isLt d.isLt).2))

end Maps

/-! ## One row's attention, level by level -/

section Attention

variable (x0 : (⟨S4096, .i32⟩ : BufTy).Contents (Elt Ideal)) (x2 : (⟨S50257x1024, .f32⟩ : BufTy).Contents (Elt Ideal))
  (x3 : (⟨S2048x1024, .f32⟩ : BufTy).Contents (Elt Ideal)) (x4 : (⟨S2048, .f32⟩ : BufTy).Contents (Elt Ideal)) (x5 : (⟨S2048x1024, .f32⟩ : BufTy).Contents (Elt Ideal)) (x6 : (⟨S2048, .f32⟩ : BufTy).Contents (Elt Ideal))

local notation "X" => val_main_v6 (F := Ideal) x0 x2

/-- The scaled score of query head `h` against key head `g` of row `r`: the contraction over the 64 features,
    divided by the square root of the word of sixty-four. -/
theorem score_at (r : Fin 4096) (h g : Fin 32) :
    val_main_v29 (F := Ideal) x0 x2 x3 x4 x5 x6 (ix3 r h g)
      = score refScale (head X x3 x4 r) (head X x5 x6 r) h g := by
  rw [val_main_v29_apply, val_main_v26_apply, val_main_v28_apply, val_main_v27_apply, val_main_cst_apply,
    Ideal.hostDivf_def, Ideal.hostUnary_sqrt_def, Ideal.ofBits_def]
  unfold score refScale
  refine congrArg (fun s => Ideal.div s _) (Finset.sum_congr rfl fun d _ => ?_)
  have el : lidx_main_v26 (ix3 r h g) d = ix3 r h d :=
    funext fun a => by match a with | ⟨0, _⟩ => rfl | ⟨1, _⟩ => rfl | ⟨2, _⟩ => rfl
  have er : ridx_main_v26 (ix3 r h g) d = ix3 r g d :=
    funext fun a => by match a with | ⟨0, _⟩ => rfl | ⟨1, _⟩ => rfl | ⟨2, _⟩ => rfl
  rw [el, er, queryHead3_at, keyHead3_at]

/-- The fact that lets the maximum over the key heads be read as a fold over `Fin 32`. -/
theorem keyAxis : S4096x32x32.Reduces [2] S4096x32 := by decide

/-- Query head `h` of row `r` with key head `g` put back on the reduced axis. -/
theorem keyAxis_lift (r : Fin 4096) (h : Fin 32) (g : Fin (S4096x32x32.size 2)) :
    keyAxis.lift (ix2 r h) g = ix3 r h (⟨g.val, g.isLt⟩ : Fin 32) :=
  funext fun a => Fin.ext (by match a with | ⟨0, _⟩ => rfl | ⟨1, _⟩ => rfl | ⟨2, _⟩ => rfl)

/-- The host's maximum over the key heads, from the word of `-∞`: at query head `h` of row `r` it is the fold of
    the maximum, from that word, over the key heads. -/
theorem hostMax_at (y : FVec Ideal S4096x32x32 .f32) (r : Fin 4096) (h : Fin 32) :
    Host.reduce FloatOps.maximumf y (val_main_cst_3 (F := Ideal)) reducesTo_S4096x32x32_S4096x32_d2 h_S_ (ix2 r h)
      = (Finset.univ : Finset (Fin 32)).fold max negInf (fun g => y (ix3 r h g)) := by
  rw [Host.reduce_eq_fold_single FloatOps.maximumf y _ reducesTo_S4096x32x32_S4096x32_d2 keyAxis h_S_]
  have hf : (y ∘ keyAxis.lift (ix2 r h)) = fun g : Fin 32 => y (ix3 r h g) :=
    funext fun g => congrArg y (keyAxis_lift r h g)
  exact congrArg (fun f => Finset.fold max negInf f (Finset.univ : Finset (Fin 32))) hf

/-- The largest score of query head `h` of row `r`: the maximum of the word of `-∞` and that fold of the scores. -/
theorem top_at (r : Fin 4096) (h : Fin 32) :
    val_main_v32 (F := Ideal) x0 x2 x3 x4 x5 x6 (ix2 r h)
      = top refScale (head X x3 x4 r) (head X x5 x6 r) h := by
  rw [val_main_v32_apply, val_main_v31_apply, val_main_cst_4_apply, Ideal.maximumf_def, Ideal.ofBits_def]
  unfold top val_main_v30
  refine congrArg (max negInf) ((hostMax_at _ r h).trans ?_)
  exact congrArg (fun f => Finset.fold max negInf f (Finset.univ : Finset (Fin 32)))
    (funext fun g => score_at x0 x2 x3 x4 x5 x6 r h g)

/-- The exponential of a score shifted by the largest score of its query head. -/
theorem ex_at (r : Fin 4096) (h g : Fin 32) :
    val_main_v36 (F := Ideal) x0 x2 x3 x4 x5 x6 (ix3 r h g)
      = ex refScale (head X x3 x4 r) (head X x5 x6 r) h g := by
  rw [val_main_v36_apply, val_main_v35_apply, val_main_v34_apply, val_main_v33_apply, Ideal.hostUnary_exp_def,
    Ideal.subf_def, score_at]
  have e : idx_main_v33 (idx_main_v34 (ix3 r h g)) = ix2 r h :=
    funext fun a => by match a with | ⟨0, _⟩ => rfl | ⟨1, _⟩ => rfl
  rw [e, top_at]
  rfl

/-- The sum of those exponentials over the key heads (the sum starts from the zero word). -/
theorem exSum_at (r : Fin 4096) (h : Fin 32) :
    val_main_v37 (F := Ideal) x0 x2 x3 x4 x5 x6 (ix2 r h)
      = ∑ g' : Fin 32, ex refScale (head X x3 x4 r) (head X x5 x6 r) h g' := by
  rw [val_main_v37_apply, val_main_cst_5_apply, Ideal.ofBits_def, Ideal.ofBits_zero_f32, zero_add]
  refine Finset.sum_congr rfl fun g _ => ?_
  have e : idx_main_v37 (ix2 r h) g = ix3 r h g :=
    funext fun a => by match a with | ⟨0, _⟩ => rfl | ⟨1, _⟩ => rfl | ⟨2, _⟩ => rfl
  rw [e, ex_at]

/-- The softmax weight of key head `g` for query head `h` of row `r`. -/
theorem weight_at (r : Fin 4096) (h g : Fin 32) :
    val_main_v40 (F := Ideal) x0 x2 x3 x4 x5 x6 (ix3 r h g)
      = weight refScale (head X x3 x4 r) (head X x5 x6 r) h g := by
  rw [val_main_v40_apply, val_main_v39_apply, val_main_v38_apply, Ideal.hostDivf_def, ex_at]
  have e : idx_main_v38 (idx_main_v39 (ix3 r h g)) = ix2 r h :=
    funext fun a => by match a with | ⟨0, _⟩ => rfl | ⟨1, _⟩ => rfl
  rw [e, exSum_at]
  rfl

variable (x7 : (⟨S2048x1024, .f32⟩ : BufTy).Contents (Elt Ideal)) (x8 : (⟨S2048, .f32⟩ : BufTy).Contents (Elt Ideal))

/-- The value rows: the value heads of the first ten batch rows, summed (the sum starts from the zero word). -/
theorem sumv_at (g : Fin 32) (d : Fin 64) :
    val_main_v48 (F := Ideal) x0 x2 x7 x8 (ix2 g d) = sumv X x7 x8 g d := by
  rw [val_main_v48_apply, val_main_cst_6_apply, Ideal.ofBits_def, Ideal.ofBits_zero_f32, zero_add]
  unfold sumv
  refine Finset.sum_congr rfl fun s _ => ?_
  have e : idx_main_v48 (ix2 g d) s = ix3 s g d :=
    funext fun a => by match a with | ⟨0, _⟩ => rfl | ⟨1, _⟩ => rfl | ⟨2, _⟩ => rfl
  rw [e, valueTen3_at]

/-- The weights of query head `h` of row `r` mix the 32 value rows. -/
theorem mix_at (r : Fin 4096) (h : Fin 32) (d : Fin 64) :
    val_main_v49 (F := Ideal) x0 x2 x3 x4 x5 x6 x7 x8 (ix3 r h d)
      = mix refScale (head X x3 x4 r) (head X x5 x6 r) (sumv X x7 x8) h d := by
  rw [val_main_v49_apply]
  unfold mix
  refine Finset.sum_congr rfl fun g _ => ?_
  have el : lidx_main_v49 (ix3 r h d) g = ix3 r h g :=
    funext fun a => by match a with | ⟨0, _⟩ => rfl | ⟨1, _⟩ => rfl | ⟨2, _⟩ => rfl
  have er : ridx_main_v49 (ix3 r h d) g = ix2 g d :=
    funext fun a => by match a with | ⟨0, _⟩ => rfl | ⟨1, _⟩ => rfl
  rw [el, er, weight_at, sumv_at]

end Attention

/-! ## The two results -/

/-- Row-major position `r·2048 + j` of a row of 2048 is row `r`, head `j / 64`, feature `j % 64`. -/
theorem join_pos (r j : Nat) (hj : j < 2048) :
    (r * 2048 + j) / 2048 = r ∧ (r * 2048 + j) / 64 % 32 = j / 64 ∧ (r * 2048 + j) % 64 = j % 64 := by
  omega

theorem ref_tvec (x0 : (⟨S4096, .i32⟩ : BufTy).Contents (Elt Ideal)) (x2 : (⟨S50257x1024, .f32⟩ : BufTy).Contents (Elt Ideal))
    (x7 : (⟨S2048x1024, .f32⟩ : BufTy).Contents (Elt Ideal)) (x8 : (⟨S2048, .f32⟩ : BufTy).Contents (Elt Ideal)) :
    val_main_v55 (F := Ideal) x0 x2 x7 x8 = Cert.RowAttn.tvec (val_main_v6 (F := Ideal) x0 x2) x7 x8 := by
  funext i
  obtain ⟨r, j, rfl⟩ : ∃ (r : Fin 4096) (j : Fin 2048), i = ix2 r j := ⟨i 0, i 1, eq_ix2 i⟩
  exact valueHead_at x0 x2 x7 x8 r j

theorem ref_cvec (x0 : (⟨S4096, .i32⟩ : BufTy).Contents (Elt Ideal)) (x2 : (⟨S50257x1024, .f32⟩ : BufTy).Contents (Elt Ideal))
    (x3 : (⟨S2048x1024, .f32⟩ : BufTy).Contents (Elt Ideal)) (x4 : (⟨S2048, .f32⟩ : BufTy).Contents (Elt Ideal))
    (x5 : (⟨S2048x1024, .f32⟩ : BufTy).Contents (Elt Ideal)) (x6 : (⟨S2048, .f32⟩ : BufTy).Contents (Elt Ideal))
    (x7 : (⟨S2048x1024, .f32⟩ : BufTy).Contents (Elt Ideal)) (x8 : (⟨S2048, .f32⟩ : BufTy).Contents (Elt Ideal)) :
    val_main_v50 (F := Ideal) x0 x2 x3 x4 x5 x6 x7 x8
      = Cert.RowAttn.cvec Cert.RowAttn.refScale (val_main_v6 (F := Ideal) x0 x2) x3 x4 x5 x6 x7 x8 := by
  funext i
  obtain ⟨r, j, rfl⟩ : ∃ (r : Fin 4096) (j : Fin 2048), i = ix2 r j := ⟨i 0, i 1, eq_ix2 i⟩
  have e : idx_main_v50 (ix2 r j) = ix3 r (hd j) (ft j) := funext fun a => Fin.ext (by
    match a with
    | ⟨0, _⟩ => exact (join_pos r.val j.val j.isLt).1
    | ⟨1, _⟩ => exact (join_pos r.val j.val j.isLt).2.1
    | ⟨2, _⟩ => exact (join_pos r.val j.val j.isLt).2.2)
  rw [val_main_v50_apply, e, mix_at]
  rfl

end Cert.RowAttn.Ref

end
-- ==== Proof.RowsAgree.lean ====
/-
  The rows the reference gathers are the rows the kernel program gathers under the precondition: both wrap a negative
  index word by the table's height and gather the table's rows at the wrapped words.
-/
import proofs.«411577_j11836929868572_2_alg».proof.Proof.Gen.ReferenceIdeal.Read
import proofs.«411577_j11836929868572_2_alg».proof.Proof.TakeInRange

noncomputable section

namespace Cert.RowAttn

open Idealize.ShloMosaic

/-- One gather at one index column. -/
theorem refRows_eq (t : IVec Cert.KernelIdeal.S4096 32) (emb : FVec Ideal Cert.KernelIdeal.S50257x1024 .f32) :
    Cert.ReferenceIdeal.Read.val_main_v6 (F := Ideal) t emb
      = Host.gather Cert.KernelIdeal.gather_S50257x1024_S4096x1_S4096x1024_1_0_n_n_0_1_11024 emb (Take.wrapIdx t) := rfl

end Cert.RowAttn

end
-- ==== Proof.Scale.lean ====
/-
  The two scalings of a score are one function on the extended reals: the word `0x42800000` denotes sixty-four, whose
  square root is eight, the word `0x3E000000` denotes one eighth, and the quotient by a nonzero real is the product
  with its reciprocal at every extended real, the infinities included.
-/
import proofs.«411577_j11836929868572_2_alg».proof.Proof.RowAttention

noncomputable section

namespace Cert.RowAttn

open Idealize.ShloMosaic

/-- The word of the reference's `64.0`. -/
theorem ofBits_sixtyfour : Ideal.ofBits .f32 0x42800000#32 = ((64 : ℝ) : EReal) := by
  simp [Ideal.ofBits, Ideal.ieee, -EReal.coe_mul]; norm_num

/-- The word of the kernel's `0.125`. -/
theorem ofBits_eighth : Ideal.ofBits .f32 0x3E000000#32 = ((1 / 8 : ℝ) : EReal) := by
  simp [Ideal.ofBits, Ideal.ieee, -EReal.coe_mul]; norm_num

theorem sqrt_sixtyfour : Real.sqrt 64 = 8 := by
  rw [show (64 : ℝ) = 8 ^ 2 by norm_num]
  exact Real.sqrt_sq (by norm_num)

/-- Dividing by the root of sixty-four is multiplying by one eighth. -/
theorem refScale_eq_kerScale : refScale = kerScale := by
  funext a
  unfold refScale kerScale
  rw [ofBits_sixtyfour, ofBits_eighth, Ideal.sqrt_coe, if_neg (by norm_num), sqrt_sixtyfour]
  exact Ideal.div_coe (by norm_num) a

end Cert.RowAttn

end
-- ==== Proof.lean ====
/-
  The kernel — a batch of 4096 embedding rows through query, key and value maps; within each row, softmax attention of its
  32 query heads against its 32 key heads; the weights mix 32 value rows summed from the first ten batch rows — equals
  its jnp reference on the extended reals, under the precondition that the float inputs are finite and every index
  word names a row of the embedding table (from the front, or negative from the end).

  Both programs gather the same rows: a negative word is wrapped by the table's height in both, and with every word in
  range the kernel side's out-of-range fill never applies (TakeInRange.lean, RowsAgree.lean). Of those rows both compute
  the functions of RowAttention.lean: the reference operation by operation (RefReading.lean); the kernel block by
  block — a grid point handles 128 consecutive rows, its body's stored values are read in BodyReading.lean, its
  blocks as entries of the arrays in KernelBlocks.lean, the two result arrays in KernelValueOut.lean and
  KernelMixOut.lean, the host lines around the launch in HostPrefix.lean, KernelInputs.lean and KernelRun.lean, and
  all of it against the specification in KernelSpec.lean. What differs between the two is only notation on the
  extended reals: the kernel narrows its operands (the identity there), contracts through transposed weights (the
  same products), multiplies a score by one eighth where the reference divides by the root of sixty-four (Scale.lean),
  and sums the ten value rows before, not after, reading 2048 outputs as 32 heads of 64 (the same ten terms).
  No law used needs finiteness: sums are only re-indexed, never distributed over.
-/
import proofs.«411577_j11836929868572_2_alg».proof.Defs
import proofs.«411577_j11836929868572_2_alg».proof.Proof.Gen.Kernel
import proofs.«411577_j11836929868572_2_alg».proof.Proof.Gen.Kernel.Skeleton
import proofs.«411577_j11836929868572_2_alg».proof.Proof.Gen.Kernel.Launch
import proofs.«411577_j11836929868572_2_alg».proof.Proof.Gen.Kernel.Points
import proofs.«411577_j11836929868572_2_alg».proof.Proof.Gen.Kernel.Frame
import proofs.«411577_j11836929868572_2_alg».proof.Proof.Gen.KernelIdeal
import proofs.«411577_j11836929868572_2_alg».proof.Proof.Gen.KernelIdeal.Skeleton
import proofs.«411577_j11836929868572_2_alg».proof.Proof.Gen.KernelIdeal.Launch
import proofs.«411577_j11836929868572_2_alg».proof.Proof.Gen.KernelIdeal.Points
import proofs.«411577_j11836929868572_2_alg».proof.Proof.Gen.KernelIdeal.Frame
import proofs.«411577_j11836929868572_2_alg».proof.Proof.Gen.ReferenceIdeal
import proofs.«411577_j11836929868572_2_alg».proof.Proof.Gen.Pre_finite_inputs
import proofs.«411577_j11836929868572_2_alg».proof.Proof.Gen.ReferenceIdeal.Run
import proofs.«411577_j11836929868572_2_alg».proof.Proof.Gen.ReferenceIdeal.Read
import proofs.«411577_j11836929868572_2_alg».proof.Proof.KernelSpec
import proofs.«411577_j11836929868572_2_alg».proof.Proof.RefReading
import proofs.«411577_j11836929868572_2_alg».proof.Proof.RowsAgree
import proofs.«411577_j11836929868572_2_alg».proof.Proof.Scale
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end with the results at the specification's two functions of the gathered rows and the weights. -/
theorem algebraic : Cert.algebraic_KernelIdeal_ReferenceIdeal := by
  intro m ρ m' ρ' hpre hagree
  refine ⟨fun c => Cert.RowAttn.Ker.valueOut m c, fun c => Cert.RowAttn.Ker.mixRes m c, Cert.RowAttn.Ker.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2⟩
  · refine (Cert.ReferenceIdeal.Read.val_main_v55_eq (F := Ideal) _ _ _ _).trans ?_
    show _ = Cert.RowAttn.Ker.valueOut m c
    rw [Cert.RowAttn.Ref.ref_tvec, a0, a2, a7, a8, Cert.RowAttn.Ker.valueOut_eq, Cert.RowAttn.Ker.rows_eq m hpre c,
      Cert.RowAttn.refRows_eq]
  · refine (Cert.ReferenceIdeal.Read.val_main_v50_eq (F := Ideal) m' c).trans ?_
    show _ = Cert.RowAttn.Ker.mixRes m c
    rw [Cert.RowAttn.Ref.ref_cvec, a0, a2, a3, a4, a5, a6, a7, a8, Cert.RowAttn.Ker.mixRes_eq,
      Cert.RowAttn.Ker.rows_eq m hpre c, Cert.RowAttn.refRows_eq, Cert.RowAttn.refScale_eq_kerScale]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
